-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x12 : Shape := ⟨2, ![4194304, 12]⟩
abbrev S4194304 : Shape := ⟨1, ![4194304]⟩
abbrev S_ : Shape := ⟨0, ![]⟩

class Facts : Prop where
  bcast_S_S4194304x12 : S_.BroadcastsInDim S4194304x12 (![] : Fin 0 → Fin S4194304x12.rank)
  reducesTo_S4194304x12_S_d0_1 : S4194304x12.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x12 .f32) (main_arg1 : IVec S4194304 32) : IVec S_ 1 :=
  let main_v0 : FVec F S4194304x12 .f32 := Host.absf main_arg0
  let main_cst : FVec F S_ .f32 := constant S_ .f32 0x7F800000#32
  let main_v1 : FVec F S4194304x12 .f32 := broadcastInDim S4194304x12 ![] bcast_S_S4194304x12 main_cst
  let main_v2 : IVec S4194304x12 1 := cmpf .olt main_v0 main_v1
  let main_c : IVec S_ 1 := constantI S_ 1 1#1
  let main_v3 : IVec S_ 1 := (fun x v => Host.reduce IntOp.andi x v reducesTo_S4194304x12_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 32 := constantI S_ 32 12#32
  let main_v6 : IVec S4194304 32 := broadcastInDim S4194304 ![] bcast_S_S4194304 main_c_1
  let main_v7 : IVec S4194304 1 := cmpi .slt main_arg1 main_v6
  let main_v8 : IVec S4194304 1 := andi main_v5 main_v7
  let main_c_2 : IVec S_ 1 := constantI S_ 1 1#1
  let main_v9 : IVec S_ 1 := (fun x v => Host.reduce IntOp.andi x v reducesTo_S4194304_S_d0 h_S_) main_v8 main_c_2
  let main_v10 : IVec S_ 1 := andi main_v3 main_v9
  main_v10
-- ==== Kernel.lean ====
abbrev S4194304x12 : Shape := ⟨2, ![4194304, 12]⟩
abbrev S4194304 : Shape := ⟨1, ![4194304]⟩
abbrev S12 : Shape := ⟨1, ![12]⟩
abbrev S12x4194304 : Shape := ⟨2, ![12, 4194304]⟩
abbrev S1x4194304 : Shape := ⟨2, ![1, 4194304]⟩
abbrev S12x1 : Shape := ⟨2, ![12, 1]⟩
abbrev S16x128 : Shape := ⟨2, ![16, 128]⟩
abbrev S12x32768 : Shape := ⟨2, ![12, 32768]⟩
abbrev S1x32768 : Shape := ⟨2, ![1, 32768]⟩
abbrev S8x128 : Shape := ⟨2, ![8, 128]⟩
abbrev S32768 : Shape := ⟨1, ![32768]⟩
abbrev S1x1x32768 : Shape := ⟨3, ![1, 1, 32768]⟩
abbrev S1 : Shape := ⟨1, ![1]⟩
abbrev S1x1x1 : Shape := ⟨3, ![1, 1, 1]⟩
abbrev S16x1 : Shape := ⟨2, ![16, 1]⟩
abbrev S16 : Shape := ⟨1, ![16]⟩
abbrev S_ : Shape := ⟨0, ![]⟩

abbrev nBuf : Space → Nat
  | .hbm => 26
  | .vmem => 7
  | .smem => 0
  | _ => 0

abbrev bufTy : (tb : Table) → Fin (tcTables nBuf tb) → BufTy
  | .hbm, ⟨0, _⟩ => ⟨S4194304x12, .f32⟩
  | .hbm, ⟨1, _⟩ => ⟨S4194304, .i32⟩
  | .hbm, ⟨2, _⟩ => ⟨S12, .f32⟩
  | .hbm, ⟨3, _⟩ => ⟨S12x4194304, .f32⟩
  | .hbm, ⟨4, _⟩ => ⟨S1x4194304, .i32⟩
  | .hbm, ⟨5, _⟩ => ⟨S12x1, .f32⟩
  | .hbm, ⟨6, _⟩ => ⟨S16x128, .f32⟩
  | .hbm, ⟨7, _⟩ => ⟨S16x1, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S16x1, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S12x32768, .f32⟩
  | .local _ .vmem, ⟨1, _⟩ => ⟨S12x32768, .f32⟩
  | .local _ .vmem, ⟨2, _⟩ => ⟨S1x32768, .i32⟩
  | .local _ .vmem, ⟨3, _⟩ => ⟨S1x32768, .i32⟩
  | .local _ .vmem, ⟨4, _⟩ => ⟨S12x1, .f32⟩
  | .local _ .vmem, ⟨5, _⟩ => ⟨S8x128, .f32⟩
  | .local _ .vmem, ⟨6, _⟩ => ⟨S8x128, .f32⟩
  | _, _ => ⟨S4194304x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S12x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S12x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4194304x12_S12x4194304_1_0 : S4194304x12.Transposes [1, 0] S12x4194304
  shapeCasts_S4194304_S1x4194304 : S4194304.ShapeCasts S1x4194304
  shapeCasts_S12_S12x1 : S12.ShapeCasts S12x1
  inb_S8x128_S8x128_0_0 : ∀ a, (![0, 0] : Fin 2 → Nat) a + S8x128.size a ≤ S8x128.size a
  h_S8x128 : 0 < S8x128.numel
  inb_S12x32768_S12x32768_0_0 : ∀ a, (![0, 0] : Fin 2 → Nat) a + S12x32768.size a ≤ S12x32768.size a
  h_S12x32768 : 0 < S12x32768.numel
  shapeCasts_S12x32768_S12x32768 : S12x32768.ShapeCasts S12x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S12x1_S12x1_0_0 : ∀ a, (![0, 0] : Fin 2 → Nat) a + S12x1.size a ≤ S12x1.size a
  h_S12x1 : 0 < S12x1.numel
  shapeCasts_S12x1_S12x1 : S12x1.ShapeCasts S12x1
  reduces_S12x32768_S32768 : S12x32768.Reduces [0] S32768
  shapeCasts_S32768_S1x32768 : S32768.ShapeCasts S1x32768
  broadcasts_S1x32768_S12x32768 : S1x32768.Broadcasts S12x32768
  iota_S12x32768_d0_w32 : S12x32768.Iotas .tc 32 [0]
  natLt_1_32 : 1 < 32
  broadcasts_S12x1_S12x32768 : S12x1.Broadcasts S12x32768
  shapeCasts_S1x32768_S1x1x32768 : S1x32768.ShapeCasts S1x1x32768
  reduces_S1x1x32768_S1 : S1x1x32768.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  shapeCasts_S8x128_S8x128 : S8x128.ShapeCasts S8x128
  slices_S16x128_S16x1_0_0 : S16x128.Slices ![0, 0] S16x1
  shapeCasts_S16x1_S16 : S16x1.ShapeCasts S16
  reducesTo_S16_S_d0 : S16.ReducesTo [0] S_
  h_S_ : 0 < S_.numel
  slices_S16x128_S16x1_0_1 : S16x128.Slices ![0, 1] S16x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x32768.size a ≤ S12x4194304.size a
  hwx0_0 : ∀ i : grid0.Coords, EltTy.bits .f32 = 32 ∨ (Rect.block (s := S12x4194304) S12x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x4194304.size a
  hwx0_1 : ∀ i : grid0.Coords, EltTy.bits .i32 = 32 ∨ (Rect.block (s := S1x4194304) S1x32768.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x1.size a ≤ S12x1.size a
  hwx0_2 : ∀ i : grid0.Coords, EltTy.bits .f32 = 32 ∨ (Rect.block (s := S12x1) S12x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_v0) S12x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x12 : Shape := ⟨2, ![4194304, 12]⟩
abbrev S4194304 : Shape := ⟨1, ![4194304]⟩
abbrev S12 : Shape := ⟨1, ![12]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4194304x12, .f32⟩
  | .hbm, ⟨1, _⟩ => ⟨S4194304, .i32⟩
  | .hbm, ⟨2, _⟩ => ⟨S12, .f32⟩
  | .hbm, ⟨3, _⟩ => ⟨S_, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S4194304x1, .f32⟩
  | .hbm, ⟨9, _⟩ => ⟨S4194304x12, .f32⟩
  | .hbm, ⟨10, _⟩ => ⟨S4194304x12, .f32⟩
  | .hbm, ⟨11, _⟩ => ⟨S4194304x12, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x1, .f32⟩
  | .hbm, ⟨16, _⟩ => ⟨S4194304x12, .f32⟩
  | .hbm, ⟨17, _⟩ => ⟨S4194304x12, .f32⟩
  | .hbm, ⟨18, _⟩ => ⟨S_, .f32⟩
  | .hbm, ⟨19, _⟩ => ⟨S4194304, .f32⟩
  | .hbm, ⟨20, _⟩ => ⟨S4194304x1, .i32⟩
  | .hbm, ⟨21, _⟩ => ⟨S_, .i32⟩
  | .hbm, ⟨22, _⟩ => ⟨S4194304x1, .i32⟩
  | .hbm, ⟨23, _⟩ => ⟨S4194304x1, .i1⟩
  | .hbm, ⟨24, _⟩ => ⟨S_, .i32⟩
  | .hbm, ⟨25, _⟩ => ⟨S4194304x1, .i32⟩
  | .hbm, ⟨26, _⟩ => ⟨S4194304x1, .i32⟩
  | .hbm, ⟨27, _⟩ => ⟨S4194304x1, .i32⟩
  | .hbm, ⟨28, _⟩ => ⟨S4194304x1x1, .i32⟩
  | .hbm, ⟨29, _⟩ => ⟨S1, .i32⟩
  | .hbm, ⟨30, _⟩ => ⟨S_, .i32⟩
  | .hbm, ⟨31, _⟩ => ⟨S4194304x1x1, .i32⟩
  | .hbm, ⟨32, _⟩ => ⟨S4194304x1x1, .i1⟩
  | .hbm, ⟨33, _⟩ => ⟨S1x1x1, .i32⟩
  | .hbm, ⟨34, _⟩ => ⟨S4194304x1x1, .i32⟩
  | .hbm, ⟨35, _⟩ => ⟨S4194304x1x1, .i1⟩
  | .hbm, ⟨36, _⟩ => ⟨S4194304x1x1, .i1⟩
  | .hbm, ⟨37, _⟩ => ⟨S_, .i1⟩
  | .hbm, ⟨38, _⟩ => ⟨S4194304x1, .i1⟩
  | .hbm, ⟨39, _⟩ => ⟨S4194304x1, .f32⟩
  | .hbm, ⟨40, _⟩ => ⟨S_, .f32⟩
  | .hbm, ⟨41, _⟩ => ⟨S4194304x1, .f32⟩
  | .hbm, ⟨42, _⟩ => ⟨S4194304x1, .f32⟩
  | .hbm, ⟨43, _⟩ => ⟨S4194304, .f32⟩
  | .hbm, ⟨44, _⟩ => ⟨S_, .i32⟩
  | .hbm, ⟨45, _⟩ => ⟨S4194304, .i32⟩
  | .hbm, ⟨46, _⟩ => ⟨S4194304, .i1⟩
  | .hbm, ⟨47, _⟩ => ⟨S_, .i32⟩
  | .hbm, ⟨48, _⟩ => ⟨S4194304, .i32⟩
  | .hbm, ⟨49, _⟩ => ⟨S4194304, .i32⟩
  | .hbm, ⟨50, _⟩ => ⟨S4194304, .i32⟩
  | .hbm, ⟨51, _⟩ => ⟨S4194304x1, .i32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S4194304, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4194304x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v3 : Ref sig .tc := ⟨.hbm, 42, rfl⟩
abbrev main_v4 : Ref sig .tc := ⟨.hbm, 43, rfl⟩
abbrev main_c : Ref sig .tc := ⟨.hbm, 44, rfl⟩
abbrev main_v5 : Ref sig .tc := ⟨.hbm, 45, rfl⟩
abbrev main_v6 : Ref sig .tc := ⟨.hbm, 46, rfl⟩
abbrev main_c_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_cst_3 : Ref sig .tc := ⟨.hbm, 58, rfl⟩
abbrev main_v16 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩
abbrev main_cst_5 : Ref sig .tc := ⟨.hbm, 63, rfl⟩
abbrev main_v19 : Ref sig .tc := ⟨.hbm, 64, rfl⟩
abbrev main_v20 : Ref sig .tc := ⟨.hbm, 65, rfl⟩
abbrev main_cst_6 : Ref sig .tc := ⟨.hbm, 66, rfl⟩
abbrev main_v21 : Ref sig .tc := ⟨.hbm, 67, rfl⟩
abbrev main_cst_7 : Ref sig .tc := ⟨.hbm, 68, rfl⟩
abbrev main_v22 : Ref sig .tc := ⟨.hbm, 69, rfl⟩
abbrev main_v23 : Ref sig .tc := ⟨.hbm, 70, rfl⟩

abbrev nD : Nat := 1
abbrev τ : Topo := Topo.v7x

variable {F : FTy → Type} [FloatOps F]

class Facts₀ : Prop where
  reducesTo_S4194304x12_S4194304_d1 : S4194304x12.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x12_0_1 : S4194304x1.BroadcastsInDim S4194304x12 (![0, 1] : Fin 2 → Fin S4194304x12.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  gather_S4194304x12_S4194304x1x1_S4194304x1_n_1_0_0_1_2_11_wf : GatherDims.WF S4194304x12 S4194304x1x1 S4194304x1 [] [1] [0] [1] [0] 2 ![1, 1]
  gather_S12_S4194304x1_S4194304_n_0_n_n_0_1_1_wf : GatherDims.WF S12 S4194304x1 S4194304 [] [0] [] [0] [] 1 ![1]

variable [Facts₀]

def gather_S4194304x12_S4194304x1x1_S4194304x1_n_1_0_0_1_2_11 : GatherDims S4194304x12 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x12_S4194304x1x1_S4194304x1_n_1_0_0_1_2_11_wf
def gather_S12_S4194304x1_S4194304_n_0_n_n_0_1_1 : GatherDims S12 S4194304x1 S4194304 where
  offsetDims := []
  collapsedSliceDims := [0]
  operandBatchingDims := []
  startIndicesBatchingDims := []
  startIndexMap := [0]
  indexVectorDim := 1
  sliceSizes := ![1]
  wf := gather_S12_S4194304x1_S4194304_n_0_n_n_0_1_1_wf

class Facts : Prop extends Facts₀ where

variable [Facts]
-- ==== Proof.Spec.lean ====
/-
  The loss both programs compute, as one function of the two argument arrays over the extended reals.

  For a sample with class scores x₀ … x₁₁ and label word t:
    M      = max of the scores (a fold of max from −∞),
    logp c = (x c − M) − log (∑ c' exp (x c' − M)),
    R      = ∑ c logp c,
    hot c  = 1 if c is the label, else 0,
    P      = ∑ c logp c · hot c            (the log-probability of the label),
    w      = ∑ c a c · hot c               (the label's neighbour weight a, a fixed table of twelve numbers),
    term   = w · (R − P) + P.
  The two totals are ∑ₛ term and ∑ₛ P over the 4194304 samples, and the loss is
    0.6 · (−(∑ₛ P) / B) + 0.4 · (−(∑ₛ term) / B),   B = 4194304.
  One program negates before it divides and the other after; over the extended reals the two agree, B being a
  nonzero real (`lossNegFirst_eq`). For a label word in range the two one-hot sums are the table's and the
  row's entries at the label (`picked_of_lt`, `weight_of_lt`).
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Loss

open Idealize.ShloMosaic Idealize.ShloMosaic.ValueIdx

/-- The twelve neighbour weights, as their f32 words: 1/3 at the four corners of the 3 × 4 board, 1/5 on its edges,
    1/8 at the two inner cells. -/
abbrev weightWord : Fin 12 → BitVec 32 := fun
  | 0 => 0x3EAAAAAB#32 | 1 => 0x3E4CCCCD#32 | 2 => 0x3E4CCCCD#32 | 3 => 0x3EAAAAAB#32 | 4 => 0x3E4CCCCD#32 | 5 => 0x3E000000#32 | 6 => 0x3E000000#32 | 7 => 0x3E4CCCCD#32
  | 8 => 0x3EAAAAAB#32 | 9 => 0x3E4CCCCD#32 | 10 => 0x3E4CCCCD#32 | 11 => 0x3EAAAAAB#32

/-- The weight table as extended reals. -/
def weightTab (c : Fin 12) : EReal := Ideal.ofBits .f32 (weightWord c)

/-- A row's maximum: the fold of max from the pattern of −∞. -/
def rowMax (x : Fin 12 → EReal) : EReal :=
  (Finset.univ : Finset (Fin 12)).fold max (Ideal.ofBits .f32 0xFF800000#32) x

/-- The sum of the exponentials of the shifted scores. -/
def sumExp (x : Fin 12 → EReal) : EReal := ∑ c : Fin 12, Ideal.exp (x c - rowMax x)

/-- The log-probability of class c. -/
def logp (x : Fin 12 → EReal) (c : Fin 12) : EReal := (x c - rowMax x) - Ideal.log (sumExp x)

/-- The sum of a row's log-probabilities. -/
def rowSum (x : Fin 12 → EReal) : EReal := ∑ c : Fin 12, logp x c

/-- The one-hot indicator of the label word t at class c. -/
def hot (t : BitVec 32) (c : Fin 12) : EReal := if BitVec.ofNat 32 c.val = t then 1 else 0

/-- The label's log-probability as a one-hot sum. -/
def picked (x : Fin 12 → EReal) (t : BitVec 32) : EReal := ∑ c : Fin 12, logp x c * hot t c

/-- The label's weight as a one-hot sum. -/
def weight (t : BitVec 32) : EReal := ∑ c : Fin 12, weightTab c * hot t c

/-- A sample's smoothed term. -/
def term (x : Fin 12 → EReal) (t : BitVec 32) : EReal := weight t * (rowSum x - picked x t) + picked x t

/-- Sample s's row of the scores array. -/
abbrev rowOf (X : (⟨2, ![4194304, 12]⟩ : Shape).Idx → EReal) (s : Fin 4194304) : Fin 12 → EReal := fun c => X (ix2 s c)

/-- The total of the smoothed terms. -/
def totTerm (X : (⟨2, ![4194304, 12]⟩ : Shape).Idx → EReal) (T : (⟨1, ![4194304]⟩ : Shape).Idx → BitVec 32) : EReal :=
  ∑ s : Fin 4194304, term (rowOf X s) (T (ix1 s))

/-- The total of the labels' log-probabilities. -/
def totPicked (X : (⟨2, ![4194304, 12]⟩ : Shape).Idx → EReal) (T : (⟨1, ![4194304]⟩ : Shape).Idx → BitVec 32) : EReal :=
  ∑ s : Fin 4194304, picked (rowOf X s) (T (ix1 s))

/-- The loss from the two totals, negating first and dividing after. -/
def lossNegFirst (a b : EReal) : EReal :=
  Ideal.ofBits .f32 0x3F19999A#32 * Ideal.div (-b) (Ideal.ofBits .f32 0x4A800000#32)
    + Ideal.ofBits .f32 0x3ECCCCCD#32 * Ideal.div (-a) (Ideal.ofBits .f32 0x4A800000#32)

/-- The loss from the two totals, dividing first and negating after. -/
def lossDivFirst (a b : EReal) : EReal :=
  Ideal.ofBits .f32 0x3F19999A#32 * -(Ideal.div b (Ideal.ofBits .f32 0x4A800000#32))
    + Ideal.ofBits .f32 0x3ECCCCCD#32 * -(Ideal.div a (Ideal.ofBits .f32 0x4A800000#32))

/-- The accumulator tile's pattern: position (0, 0) carries the first total, (0, 1) the second, every other
    position nothing. -/
def slot (r : Fin 8) (q : Fin 128) (a b : EReal) : EReal :=
  if r.val = 0 ∧ q.val = 0 then a else if r.val = 0 ∧ q.val = 1 then b else 0

/-- The whole loss as a function of the two argument arrays (a rank-0 array). -/
def loss (X : (⟨2, ![4194304, 12]⟩ : Shape).Idx → EReal) (T : (⟨1, ![4194304]⟩ : Shape).Idx → BitVec 32) :
    (⟨0, ![]⟩ : Shape).Idx → EReal := fun _ => lossNegFirst (totTerm X T) (totPicked X T)

/-- The pattern of 4194304.0 denotes the real 4194304. -/
theorem ofBits_count : Ideal.ofBits .f32 0x4A800000#32 = ((4194304 : ℝ) : EReal) := by
  simp [Ideal.ofBits, Ideal.ieee, -EReal.coe_mul]; norm_num

/-- The pattern of −∞ denotes the bottom element. -/
theorem ofBits_negInf : Ideal.ofBits .f32 0xFF800000#32 = ⊥ := by
  simp [Ideal.ofBits, Ideal.ieee]

/-- Negating before or after the division by the sample count gives the same extended real. -/
theorem div_neg_count (x : EReal) :
    Ideal.div (-x) (Ideal.ofBits .f32 0x4A800000#32) = -(Ideal.div x (Ideal.ofBits .f32 0x4A800000#32)) := by
  rw [ofBits_count, Ideal.div_coe (by norm_num : (4194304 : ℝ) ≠ 0), Ideal.div_coe (by norm_num : (4194304 : ℝ) ≠ 0),
    EReal.neg_mul]

theorem lossNegFirst_eq (a b : EReal) : lossNegFirst a b = lossDivFirst a b := by
  unfold lossNegFirst lossDivFirst
  rw [div_neg_count, div_neg_count]

/-- For a label word below twelve the indicator is that of the class it names. -/
theorem hot_of_lt (t : BitVec 32) (h : t.toNat < 12) (c : Fin 12) :
    hot t c = if c = ⟨t.toNat, h⟩ then 1 else 0 := by
  unfold hot
  have hc : c.val < 12 := c.isLt
  have e : (BitVec.ofNat 32 c.val = t) ↔ c = ⟨t.toNat, h⟩ := by
    constructor
    · intro he
      apply Fin.ext
      have := congrArg BitVec.toNat he
      simp only [BitVec.toNat_ofNat] at this
      show c.val = t.toNat
      omega
    · intro he
      subst he
      apply BitVec.eq_of_toNat_eq
      rw [BitVec.toNat_ofNat]
      exact Nat.mod_eq_of_lt (by show t.toNat < 2 ^ 32; omega)
  simp only [e]

/-- A one-hot sum over the twelve classes picks the entry at the label. -/
theorem sum_mul_hot (f : Fin 12 → EReal) (t : BitVec 32) (h : t.toNat < 12) :
    ∑ c : Fin 12, f c * hot t c = f ⟨t.toNat, h⟩ := by
  rw [Finset.sum_eq_single (⟨t.toNat, h⟩ : Fin 12)]
  · rw [hot_of_lt t h, if_pos rfl, mul_one]
  · intro c _ hne
    rw [hot_of_lt t h, if_neg hne, mul_zero]
  · intro hn
    exact absurd (Finset.mem_univ _) hn

theorem picked_of_lt (x : Fin 12 → EReal) (t : BitVec 32) (h : t.toNat < 12) : picked x t = logp x ⟨t.toNat, h⟩ :=
  sum_mul_hot (logp x) t h

theorem weight_of_lt (t : BitVec 32) (h : t.toNat < 12) : weight t = weightTab ⟨t.toNat, h⟩ :=
  sum_mul_hot weightTab t h

end Cert.Loss

end
-- ==== Proof.KNames.lean ====
/-
  Names for the kernel side: the two argument arrays on a core, the sample a grid block's lane stands for, a
  block's two partial totals, and the output array after the run.
-/
import proofs.«428217_j5540507811956_3_alg».proof.Proof.Gen.KernelIdeal.Frame
import proofs.«428217_j5540507811956_3_alg».proof.Proof.Spec

noncomputable section
open scoped BigOperators
open Idealize.ShloMosaic Idealize.ShloMosaic.TcCoe Idealize.SL.Sem Idealize.ShloMosaic.ValueIdx
open Idealize.ShloMosaic.Pipeline (Dat)

namespace Cert.KernelIdeal.Names
open Cert.KernelIdeal Cert.KernelIdeal.Gen

variable (m : (ℓ : Loc nD τ sig) → Buf (Elt Ideal) ℓ)

/-- The scores array and the labels array as core c holds them at launch. -/
abbrev scores (c : Dev nD) : (⟨2, ![4194304, 12]⟩ : Shape).Idx → EReal := m ((c : Thread nD τ).loc main_arg0)
abbrev labels (c : Dev nD) : (⟨1, ![4194304]⟩ : Shape).Idx → BitVec 32 := m ((c : Thread nD τ).loc main_arg1)

/-- Lane l of grid block t is sample 32768 t + l. -/
theorem sample_lt (t : Fin cfg0.N) (l : Fin 32768) : t.val * 32768 + l.val < 4194304 := by
  have := t.isLt; have hN : cfg0.N = 128 := N_0; have := l.isLt; omega

/-- Block t's total of the smoothed terms, and of the labels' log-probabilities. -/
def blockTerm (c : Dev nD) (t : Fin cfg0.N) : EReal :=
  ∑ l : Fin 32768, Loss.term (Loss.rowOf (scores m c) ⟨t.val * 32768 + l.val, sample_lt t l⟩) (labels m c (ix1 ⟨t.val * 32768 + l.val, sample_lt t l⟩))
def blockPicked (c : Dev nD) (t : Fin cfg0.N) : EReal :=
  ∑ l : Fin 32768, Loss.picked (Loss.rowOf (scores m c) ⟨t.val * 32768 + l.val, sample_lt t l⟩) (labels m c (ix1 ⟨t.val * 32768 + l.val, sample_lt t l⟩))

/-- Point b of half cc is grid point 64 cc + b; row r of half cc's tile is row 8 cc + r of the output array. -/
theorem point_lt (cc : Fin 2) (b : Fin 64) : 64 * cc.val + b.val < cfg0.N := by
  have hN : cfg0.N = 128 := N_0; have := cc.isLt; have := b.isLt; omega
theorem row_lt (cc : Fin 2) (r : Fin 8) : 8 * cc.val + r.val < 16 := by have := cc.isLt; have := r.isLt; omega

/-- The output array after the run, at its literal type. -/
abbrev outArr (c : Dev nD) : Vec Ideal S16x128 .f32 := (dats m 0 c).arrAt 3 cfg0.N

end Cert.KernelIdeal.Names
end
-- ==== Proof.KBody.lean ====
/-
  What each of the body's two control cases leaves in the accumulator tile, as the last store's payload.
-/
import proofs.«428217_j5540507811956_3_alg».proof.Proof.Gen.KernelIdeal.Frame
import Idealize.ShloMosaic.Lib.Pipeline.Value
import Idealize.ShloMosaic.Lib.ValueIdx
import Idealize.ShloMosaic.Lib.Tactic

noncomputable section
open scoped BigOperators
open Idealize.ShloMosaic Idealize.ShloMosaic.TcCoe Idealize.SL.Sem Idealize.ShloMosaic.ValueIdx
open Idealize.ShloMosaic.Pipeline (Dat)

namespace Cert.KernelIdeal.Body
open Cert.KernelIdeal Cert.KernelIdeal.Gen

variable {F : FTy → Type} [FloatOps F]

/-- The zero offset pair as a constant function. -/
theorem hz : (![0, 0] : Fin 2 → Nat) = fun _ => 0 := funext fun a => by fin_cases a <;> rfl

/-- At the first point of a half (the tile is reset first): the zero tile plus the point's contribution. -/
theorem out_A (c : Dev nD) (i : grid0.Coords) (a2 : Memref sig .tc .vmem S12x32768 .f32) (h2 : a2.IsWhole)
    (a3 : Memref sig .tc .vmem S1x32768 .i32) (h3 : a3.IsWhole) (a4 : Memref sig .tc .vmem S12x1 .f32) (h4 : a4.IsWhole)
    (a5 : Memref sig .tc .vmem S8x128 .f32) (h5 : a5.IsWhole) (hc : cond0_0 i)
    (x0 : Vec F S12x32768 .f32) (x1 : Vec F S1x32768 .i32) (x2 : Vec F S12x1 .f32) :
    out0_A_3 c i a2 h2 a3 h3 a4 h4 a5 h5 hc x0 x1 x2 = k0_pay1 (k0_pay6 x0 x1 x2) (k0_pay7 x0 x1) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, View.ld_unit_zero (S := S12x32768) hz,
    View.ld_unit_zero (S := S1x32768) hz, View.ld_unit_zero (S := S12x1) hz, View.ld_unit_zero (S := S8x128) hz]

/-- At every other point: what the point before left plus the point's contribution. -/
theorem out_B (c : Dev nD) (i : grid0.Coords) (a2 : Memref sig .tc .vmem S12x32768 .f32) (h2 : a2.IsWhole)
    (a3 : Memref sig .tc .vmem S1x32768 .i32) (h3 : a3.IsWhole) (a4 : Memref sig .tc .vmem S12x1 .f32) (h4 : a4.IsWhole)
    (a5 : Memref sig .tc .vmem S8x128 .f32) (h5 : a5.IsWhole) (hc : ¬cond0_0 i)
    (x0 : Vec F S12x32768 .f32) (x1 : Vec F S1x32768 .i32) (x2 : Vec F S12x1 .f32) (xo : Vec F S8x128 .f32) :
    out0_B_3 c i a2 h2 a3 h3 a4 h4 a5 h5 hc x0 x1 x2 xo = k0_pay1 (k0_pay6 x0 x1 x2) (k0_pay7 x0 x1) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  simp only [View.readAt_eq_ld, h2.read_unread, h3.read_unread, h4.read_unread, h5.read_unread, View.ld_unit_zero (S := S12x32768) hz,
    View.ld_unit_zero (S := S1x32768) hz, View.ld_unit_zero (S := S12x1) hz, View.ld_unit_zero (S := S8x128) hz]

end Cert.KernelIdeal.Body
end
-- ==== Proof.KPaySlot.lean ====
/-
  The accumulating store's payload read at a position of the 8 × 128 tile: the old entry plus the first scalar at
  (0, 0), plus the sum of the second vector at (0, 1), plus nothing elsewhere; and the reset tile is zero.
-/
import proofs.«428217_j5540507811956_3_alg».proof.Proof.Gen.KernelIdeal.Skeleton
import proofs.«428217_j5540507811956_3_alg».proof.Proof.Spec
import Idealize.ShloMosaic.Lib.Pipeline.Value
import Idealize.ShloMosaic.Lib.ValueLayout
import Idealize.ShloMosaic.PureOps.Ideal.Laws

noncomputable section
open scoped BigOperators
open Idealize.ShloMosaic Idealize.ShloMosaic.TcCoe Idealize.SL.Sem Idealize.ShloMosaic.ValueIdx
open Idealize.ShloMosaic.Pipeline (Dat)

namespace Cert.KernelIdeal.PaySlot
open Cert.KernelIdeal Cert.KernelIdeal.Gen

/-- An index of the 1 × 1 × n shape is its last coordinate. -/
def lastEquiv (n : Nat) : (⟨3, ![1, 1, n]⟩ : Shape).Idx ≃ Fin n where
  toFun i := i 2
  invFun l := ix3 (0 : Fin 1) (0 : Fin 1) l
  left_inv i := by
    funext a
    match a with
    | ⟨0, _⟩ => exact Subsingleton.elim (α := Fin 1) _ _
    | ⟨1, _⟩ => exact Subsingleton.elim (α := Fin 1) _ _
    | ⟨2, _⟩ => rfl
  right_inv _ := rfl

/-- A sum over the 1 × 1 × n index set is the sum over the last coordinate. -/
theorem sum_last {M : Type*} [AddCommMonoid M] (n : Nat) (f : (⟨3, ![1, 1, n]⟩ : Shape).Idx → M) :
    ∑ i, f i = ∑ l : Fin n, f (ix3 (0 : Fin 1) (0 : Fin 1) l) := by
  rw [← Equiv.sum_comp (lastEquiv n).symm f]
  rfl

/-- Two words of small naturals are equal exactly when the naturals are. -/
theorem word_eq_iff (n k : Nat) (hn : n < 4294967296) (hk : k < 4294967296) : BitVec.ofNat 32 n = BitVec.ofNat 32 k ↔ n = k := by
  constructor
  · intro h
    have := congrArg BitVec.toNat h
    simp only [BitVec.toNat_ofNat] at this
    omega
  · intro h; rw [h]

/-- A select on the conjunction of two word equalities is the `if` on the conjunction. -/
theorem select_and_eq {α : Type} (x x0 y y0 : BitVec 32) (A B : α) :
    Scalar.select (IntOp.andi (IntOp.cmpi .eq x x0) (IntOp.cmpi .eq y y0)) A B = if x = x0 ∧ y = y0 then A else B := by
  have key : (IntOp.andi (IntOp.cmpi .eq x x0) (IntOp.cmpi .eq y y0) = (1 : BitVec 1)) ↔ (x = x0 ∧ y = y0) := by
    show (BitVec.ofBool (x == x0) &&& BitVec.ofBool (y == y0) = (1 : BitVec 1)) ↔ _
    cases h1 : (x == x0) <;> cases h2 : (y == y0)
    · exact ⟨fun h => absurd h (by decide), fun h => absurd h.1 (ne_of_beq_false h1)⟩
    · exact ⟨fun h => absurd h (by decide), fun h => absurd h.1 (ne_of_beq_false h1)⟩
    · exact ⟨fun h => absurd h (by decide), fun h => absurd h.2 (ne_of_beq_false h2)⟩
    · exact ⟨fun _ => ⟨eq_of_beq h1, eq_of_beq h2⟩, fun _ => by decide⟩
  unfold Scalar.select
  by_cases h : x = x0 ∧ y = y0
  · rw [if_pos h, if_pos (key.mpr h)]
  · rw [if_neg h, if_neg (fun h' => h (key.mp h'))]

/-- The row iota of the tile reads the row. -/
theorem iota0_apply (r : Fin 8) (q : Fin 128) :
    iota .tc S8x128 32 [0] iota_S8x128_d0_w32 (ix2 r q) = BitVec.ofNat 32 r.val :=
  iota_single_apply .tc S8x128 32 0 iota_S8x128_d0_w32 (ix2 r q)

/-- The column iota of the tile reads the column. -/
theorem iota1_apply (r : Fin 8) (q : Fin 128) :
    iota .tc S8x128 32 [1] iota_S8x128_d1_w32 (ix2 r q) = BitVec.ofNat 32 q.val :=
  iota_single_apply .tc S8x128 32 1 iota_S8x128_d1_w32 (ix2 r q)

/-- The one element of the total reduction of a 1 × 1 × 32768 vector is the sum over its last coordinate. -/
theorem total_apply (v : FVec Ideal S1x1x32768 .f32) (acc : BitVec 32) (hφ : FKind.Formats FTy.f32)
    (hacc : acc = FKind.add.neutral FTy.f32 hφ) :
    extractAt ![0, 0, 0] (shapeCast S1x1x1 (multiReduction .add [1, 2] S1 v acc reduces_S1x1x32768_S1 hφ hacc)
      shapeCasts_S1_S1x1x1) inpos_S1x1x1_p0_0_0 = ∑ l : Fin 32768, v (ix3 (0 : Fin 1) (0 : Fin 1) l) := by
  unfold extractAt shapeCast
  rw [Ideal.multiReduction_add_total v acc reduces_S1x1x32768_S1 (fun b => by
    have hb : b = 0 := Subsingleton.elim (α := Fin 1) _ _
    subst hb; rfl)]
  exact sum_last 32768 v

theorem pay1_apply (a : Ideal .f32) (v : FVec Ideal S1x1x32768 .f32) (o : Vec Ideal S8x128 .f32) (r : Fin 8) (q : Fin 128) :
    k0_pay1 (F := Ideal) a v o (ix2 r q) = o (ix2 r q) + Loss.slot r q a (∑ l : Fin 32768, v (ix3 (0 : Fin 1) (0 : Fin 1) l)) := by
  have hr : r.val < 4294967296 := lt_trans r.isLt (by norm_num)
  have hq : q.val < 4294967296 := lt_trans q.isLt (by norm_num)
  unfold k0_pay1
  simp only [addf_apply, select_apply, shapeCast_self, broadcast_apply, andi, cmpi, select_and_eq]
  rw [iota0_apply, iota1_apply]
  unfold Loss.slot
  refine congrArg (o (ix2 r q) + ·) ?_
  exact if_congr (and_congr (word_eq_iff r.val 0 hr (by norm_num)) (word_eq_iff q.val 0 hq (by norm_num))) rfl
    (if_congr (and_congr (word_eq_iff r.val 0 hr (by norm_num)) (word_eq_iff q.val 1 hq (by norm_num)))
      (total_apply v _ _ _) Ideal.ofBits_zero_f32)

theorem pay2_apply (r : Fin 8) (q : Fin 128) : k0_pay2 (F := Ideal) (ix2 r q) = 0 := by
  unfold k0_pay2
  simp only [broadcast_apply]
  exact Ideal.ofBits_zero_f32

end Cert.KernelIdeal.PaySlot
end
-- ==== Proof.KPayRow.lean ====
/-
  The body's arithmetic on a block of 32768 samples (classes along axis 0, samples along the lanes): the scalar it
  hands to the accumulator is the block's total of the smoothed terms, and the vector it hands on holds each
  sample's label log-probability.
-/
import proofs.«428217_j5540507811956_3_alg».proof.Proof.Gen.KernelIdeal.Skeleton
import proofs.«428217_j5540507811956_3_alg».proof.Proof.Spec
import Idealize.ShloMosaic.Lib.Pipeline.Value
import Idealize.ShloMosaic.Lib.ValueLayout
import Idealize.ShloMosaic.PureOps.Ideal.Laws

noncomputable section
open scoped BigOperators
open Idealize.ShloMosaic Idealize.ShloMosaic.TcCoe Idealize.SL.Sem Idealize.ShloMosaic.ValueIdx
open Idealize.ShloMosaic.Pipeline (Dat)

namespace Cert.KernelIdeal.PayRow
open Cert.KernelIdeal Cert.KernelIdeal.Gen

/-! ## Reading the reductions over the classes and the broadcasts at an index -/

/-- The index a reduction over the classes inserts at lane l and class k is (k, l). -/
theorem lift0 (h : S12x32768.Reduces [0] S32768) (l : Fin 32768) (k : Fin 12) :
    h.lift (ix1 l) k = ix2 k l := by
  funext a; apply Fin.ext
  match a with
  | ⟨0, _⟩ => rfl
  | ⟨1, _⟩ => rfl

/-- An exponential at an index is the exponential of the element. -/
theorem exp_apply {s : Shape} (x : FVec Ideal s .f32) (i : s.Idx) : exp x i = Ideal.exp (x i) := rfl
/-- A logarithm at an index is the logarithm of the element. -/
theorem log_apply {s : Shape} (x : FVec Ideal s .f32) (i : s.Idx) : log x i = Ideal.log (x i) := rfl

/-- The maximum over the classes at lane l is the row maximum of column l. -/
theorem max0_apply (v : FVec Ideal S12x32768 .f32) (hφ : FKind.Formats .f32)
    (hacc : (0xFF800000#32 : BitVec 32) = FKind.maximumf.neutral .f32 hφ) (l : Fin 32768) :
    multiReduction (F := Ideal) .maximumf [0] S32768 v 0xFF800000#32 reduces_S12x32768_S32768 hφ hacc (ix1 l)
      = Loss.rowMax (fun c' : Fin 12 => v (ix2 c' l)) := by
  refine (Ideal.multiReduction_maximumf_single v _ reduces_S12x32768_S32768 hφ hacc (ix1 l)).trans ?_
  unfold Loss.rowMax
  congr 1
  funext k
  exact congrArg v (lift0 _ l k)

/-- The sum over the classes at lane l is the sum of column l. -/
theorem sum0_apply (v : FVec Ideal S12x32768 .f32) (hφ : FKind.Formats .f32)
    (hacc : (0x00000000#32 : BitVec 32) = FKind.add.neutral .f32 hφ) (l : Fin 32768) :
    multiReduction (F := Ideal) .add [0] S32768 v 0x00000000#32 reduces_S12x32768_S32768 hφ hacc (ix1 l)
      = ∑ c' : Fin 12, v (ix2 c' l) := by
  refine (Ideal.multiReduction_add_single v _ reduces_S12x32768_S32768 hφ hacc (ix1 l)).trans ?_
  refine Finset.sum_congr rfl fun k _ => ?_
  exact congrArg v (lift0 _ l k)

/-- A lane vector given a leading unit axis and broadcast over the classes reads its lane. -/
theorem keep_apply {α : Type} (v : S32768.Idx → α) (p : Fin 12) (l : Fin 32768) :
    broadcastTo S12x32768 (shapeCast S1x32768 v shapeCasts_S32768_S1x32768) broadcasts_S1x32768_S12x32768 (ix2 p l)
      = v (ix1 l) := by
  rw [broadcastTo_1b_ab_apply, shapeCast_a_1a_apply]

/-- A column of twelve entries broadcast over the lanes reads its entry. -/
theorem wcol_apply {α : Type} (v : S12x1.Idx → α) (p : Fin 12) (l : Fin 32768) :
    broadcastTo S12x32768 v broadcasts_S12x1_S12x32768 (ix2 p l) = v (ix2 p (0 : Fin 1)) := by
  refine broadcastTo_apply v _ (ix2 p l) (ix2 p (0 : Fin 1)) fun ax => ?_
  match ax with
  | ⟨0, _⟩ => rfl
  | ⟨1, _⟩ => rfl

/-! ## The log-probabilities and the one-hot indicator -/

/-- The first payload at (c, l) is the log-probability of class c in column l: the shifted score minus the
    logarithm of the sum of the exponentials of the shifted scores. -/
theorem logp_apply (x0 : Vec Ideal S12x32768 .f32) (c : Fin 12) (l : Fin 32768) :
    k0_pay3 (F := Ideal) x0 (ix2 c l) = Loss.logp (fun c' : Fin 12 => x0 (ix2 c' l)) c := by
  unfold k0_pay3
  simp only [shapeCast_self]
  rw [subf_apply, subf_apply, keep_apply, broadcastTo_1b_ab_apply, log_apply, shapeCast_a_1a_apply]
  unfold Loss.logp Loss.sumExp
  refine congrArg₂ (· - ·) (congrArg₂ (· - ·) rfl (max0_apply x0 _ _ l))
    (congrArg Ideal.log ((sum0_apply _ _ _ l).trans ?_))
  refine Finset.sum_congr rfl fun k _ => ?_
  rw [exp_apply, subf_apply, keep_apply]
  exact congrArg Ideal.exp (congrArg₂ (· - ·) rfl (max0_apply x0 _ _ l))

/-- The comparison bit of two words, widened to 32 bits and read as a signed integer, is 1 when they are equal
    and 0 otherwise. -/
theorem hot_word (a t : BitVec 32) :
    (((((IntOp.cmpi .eq a t).setWidth 32).toInt : ℤ) : ℝ) : EReal) = if a = t then 1 else 0 := by
  unfold IntOp.cmpi
  by_cases h : a = t
  · subst h; simp
  · have hb : (a == t) = false := beq_eq_false_iff_ne.mpr h
    simp [hb, h]

/-- The second payload at (c, l) is the indicator that lane l's label word names class c. -/
theorem hot_apply (x1 : Vec Ideal S1x32768 .i32) (c : Fin 12) (l : Fin 32768) :
    k0_pay4 (F := Ideal) x1 (ix2 c l) = Loss.hot (x1 (ix2 (0 : Fin 1) l)) c := by
  unfold k0_pay4
  simp only [shapeCast_self]
  rw [sitofp_apply, extui_apply]
  show (((((IntOp.cmpi .eq (iota .tc S12x32768 32 [0] iota_S12x32768_d0_w32 (ix2 c l))
    (broadcastTo S12x32768 x1 broadcasts_S1x32768_S12x32768 (ix2 c l))).setWidth 32).toInt : ℤ) : ℝ) : EReal) = _
  rw [hot_word, iota_single_apply, broadcastTo_1b_ab_apply]
  rfl

/-! ## Sums over a 1 × 1 × n index set -/

/-- An index of a 1 × 1 × n array is determined by its last coordinate. -/
theorem ix3_unit_eq {n : Nat} (i : (⟨3, ![1, 1, n]⟩ : Shape).Idx) :
    ix3 (0 : Fin 1) (0 : Fin 1) (i 2 : Fin n) = i := by
  funext a
  match a with
  | ⟨0, _⟩ => exact Subsingleton.elim (α := Fin 1) _ _
  | ⟨1, _⟩ => exact Subsingleton.elim (α := Fin 1) _ _
  | ⟨2, _⟩ => rfl

/-- The indices of a 1 × 1 × n array correspond to their last coordinates. -/
def unitIdxEquiv (n : Nat) : (⟨3, ![1, 1, n]⟩ : Shape).Idx ≃ Fin n where
  toFun i := i 2
  invFun l := ix3 (0 : Fin 1) (0 : Fin 1) l
  left_inv := ix3_unit_eq
  right_inv _ := rfl

/-- A sum over the indices of a 1 × 1 × n array is the sum over the last coordinate. -/
theorem sum_ix3_unit {M : Type*} [AddCommMonoid M] {n : Nat} (f : (⟨3, ![1, 1, n]⟩ : Shape).Idx → M) :
    ∑ i, f i = ∑ l : Fin n, f (ix3 (0 : Fin 1) (0 : Fin 1) l) :=
  Fintype.sum_equiv (unitIdxEquiv n) _ _ fun i => congrArg f (ix3_unit_eq i).symm

/-- The one entry of a one-element vector, read through the cast to 1 × 1 × 1. -/
theorem extract_one {α : Type} (v : S1.Idx → α) :
    extractAt ![0, 0, 0] (shapeCast S1x1x1 v shapeCasts_S1_S1x1x1) inpos_S1x1x1_p0_0_0 = v (ix1 (0 : Fin 1)) := by
  unfold extractAt shapeCast
  refine congrArg v (funext fun a => ?_)
  match a with
  | ⟨0, _⟩ => exact Subsingleton.elim (α := Fin 1) _ _

/-! ## The label's log-probability and the block's total -/

/-- The one-hot sum over the classes at lane l is the label's log-probability in column l. -/
theorem pay5_apply (x0 : Vec Ideal S12x32768 .f32) (x1 : Vec Ideal S1x32768 .i32) (l : Fin 32768) :
    k0_pay5 (F := Ideal) x0 x1 (ix2 (0 : Fin 1) l)
      = Loss.picked (fun c : Fin 12 => x0 (ix2 c l)) (x1 (ix2 (0 : Fin 1) l)) := by
  unfold k0_pay5
  simp only []
  rw [shapeCast_a_1a_apply]
  refine (sum0_apply _ _ _ l).trans ?_
  unfold Loss.picked
  refine Finset.sum_congr rfl fun k _ => ?_
  rw [mulf_apply, logp_apply, hot_apply]

theorem pay7_apply (x0 : Vec Ideal S12x32768 .f32) (x1 : Vec Ideal S1x32768 .i32) (l : Fin 32768) :
    k0_pay7 (F := Ideal) x0 x1 (ix3 (0 : Fin 1) (0 : Fin 1) l) = Loss.picked (fun c : Fin 12 => x0 (ix2 c l)) (x1 (ix2 (0 : Fin 1) l)) := by
  unfold k0_pay7
  rw [shapeCast_ab_1ab_apply, pay5_apply]

theorem pay6_eq (x0 : Vec Ideal S12x32768 .f32) (x1 : Vec Ideal S1x32768 .i32) (x2 : Vec Ideal S12x1 .f32)
    (hx2 : ∀ c : Fin 12, x2 (ix2 c (0 : Fin 1)) = Loss.weightTab c) :
    k0_pay6 (F := Ideal) x0 x1 x2 = ∑ l : Fin 32768, Loss.term (fun c : Fin 12 => x0 (ix2 c l)) (x1 (ix2 (0 : Fin 1) l)) := by
  unfold k0_pay6
  simp only [shapeCast_self]
  -- the scalar is the one entry of the total over the 1 × 1 × 32768 array, a sum over the lanes
  refine (extract_one _).trans ?_
  refine (Ideal.multiReduction_add_total _ _ _ (fun b => match b with | ⟨0, _⟩ => rfl) _ _ _).trans ?_
  refine (sum_ix3_unit _).trans ?_
  refine Finset.sum_congr rfl fun l _ => ?_
  -- at lane l: w · (R − P) + P
  rw [shapeCast_ab_1ab_apply, addf_apply, mulf_apply, subf_apply, pay5_apply, shapeCast_a_1a_apply,
    shapeCast_a_1a_apply]
  unfold Loss.term Loss.weight Loss.rowSum
  refine congrArg₂ (· + ·) (congrArg₂ (· * ·) ((sum0_apply _ _ _ l).trans ?_)
    (congrArg₂ (· - ·) ((sum0_apply _ _ _ l).trans ?_) rfl)) rfl
  · refine Finset.sum_congr rfl fun k _ => ?_
    rw [mulf_apply, wcol_apply, hx2, hot_apply]
  · exact Finset.sum_congr rfl fun k _ => logp_apply x0 k l

end Cert.KernelIdeal.PayRow
end
-- ==== Proof.KIn.lean ====
/-
  The three input windows' blocks at a grid point, read at an index: the scores block is the transposed scores
  array at samples 32768 t … 32768 t + 32767, the labels block the labels there, the weights block the table.
-/
import proofs.«428217_j5540507811956_3_alg».proof.Proof.KNames
import Idealize.ShloMosaic.Lib.Pipeline.Value
import Idealize.ShloMosaic.Lib.ValueLayout
import Idealize.ShloMosaic.Lib.StableHlo.Run
import Idealize.ShloMosaic.Lib.Tactic

noncomputable section
open scoped BigOperators
open Idealize.ShloMosaic Idealize.ShloMosaic.TcCoe Idealize.SL.Sem Idealize.ShloMosaic.ValueIdx
open Idealize.ShloMosaic.Pipeline (Dat)

namespace Cert.KernelIdeal.In
open Cert.KernelIdeal Cert.KernelIdeal.Gen Cert.KernelIdeal.Names

variable (m : (ℓ : Loc nD τ sig) → Buf (Elt Ideal) ℓ)

/-- The scores array as the region finds it: the launched scores, transposed. -/
theorem V_v0 (c : Dev nD) :
    V m c main_v0 = transpose S12x4194304 [1, 0] (m ((c : Thread nD τ).loc main_arg0)) transposes_S4194304x12_S12x4194304_1_0 := by
  show StableHlo.after (List.flatten [hostOps0]) (fun b => m (c, b)) (Proc.devRef .tc main_v0) = _
  simp only [List.flatten_cons, List.flatten_nil, List.append_nil]
  after_results

/-- The labels array as the region finds it: the launched labels, as one row. -/
theorem V_v1 (c : Dev nD) :
    V m c main_v1 = shapeCast S1x4194304 (m ((c : Thread nD τ).loc main_arg1)) shapeCasts_S4194304_S1x4194304 := by
  show StableHlo.after (List.flatten [hostOps0]) (fun b => m (c, b)) (Proc.devRef .tc main_v1) = _
  simp only [List.flatten_cons, List.flatten_nil, List.append_nil]
  after_results
  rfl

/-- The weights array as the region finds it: the twelve-entry table, as one column. -/
theorem V_v2 (c : Dev nD) :
    V m c main_v2 = shapeCast S12x1 (fun i : S12.Idx => (FloatOps.ofBits .f32 (lit0 (S12.rowMajor i)) : Ideal .f32)) shapeCasts_S12_S12x1 := by
  show StableHlo.after (List.flatten [hostOps0]) (fun b => m (c, b)) (Proc.devRef .tc main_v2) = _
  simp only [List.flatten_cons, List.flatten_nil, List.append_nil]
  after_results
  rfl

/-- The three index maps over the grid: the scores and labels windows sit at block (0, t), the weights window at (0, 0). -/
theorem hidx0 : ∀ t : Fin cfg0.N, win0_0.index t 0 = 0 ∧ win0_0.index t 1 = t.val :=
  (by decide +kernel : ∀ t : Fin grid0.N, win0_0.index t 0 = 0 ∧ win0_0.index t 1 = t.val)
theorem hidx1 : ∀ t : Fin cfg0.N, win0_1.index t 0 = 0 ∧ win0_1.index t 1 = t.val :=
  (by decide +kernel : ∀ t : Fin grid0.N, win0_1.index t 0 = 0 ∧ win0_1.index t 1 = t.val)
theorem hidx2 : ∀ t : Fin cfg0.N, win0_2.index t 0 = 0 ∧ win0_2.index t 1 = 0 :=
  (by decide +kernel : ∀ t : Fin grid0.N, win0_2.index t 0 = 0 ∧ win0_2.index t 1 = 0)

/-- The program's literal table is the specification's table of weight words. -/
theorem lit0_eq : (lit0 : Fin 12 → BitVec 32) = Loss.weightWord := by
  funext i; fin_cases i <;> rfl

/-- The one-axis index of class cls sits at row-major position cls. -/
theorem rowMajor_ix1 (cls : Fin 12) : (S12.rowMajor (ix1 cls) : Fin 12) = cls :=
  Fin.ext (Shape.rowMajor_val_one (ix1 cls))

theorem blk0_apply (c : Dev nD) (t : Fin cfg0.N) (cls : Fin 12) (l : Fin 32768) :
    (iblk m c 0 t : Vec Ideal S12x32768 .f32) (ix2 cls l) = scores m c (ix2 ⟨t.val * 32768 + l.val, sample_lt t l⟩ cls) := by
  unfold iblk
  rw [View.read_apply]
  show V m c main_v0 _ = _
  rw [V_v0]
  refine transpose_apply _ _ _ _ (ix2 ⟨t.val * 32768 + l.val, sample_lt t l⟩ cls) (fun b => ?_)
  match b with
  | ⟨0, _⟩ => show cls.val = win0_0.index t 0 * 12 + 1 * cls.val; rw [(hidx0 t).1]; omega
  | ⟨1, _⟩ => show t.val * 32768 + l.val = win0_0.index t 1 * 32768 + 1 * l.val; rw [(hidx0 t).2]; omega

theorem blk1_apply (c : Dev nD) (t : Fin cfg0.N) (l : Fin 32768) :
    (iblk m c 1 t : Vec Ideal S1x32768 .i32) (ix2 (0 : Fin 1) l) = labels m c (ix1 ⟨t.val * 32768 + l.val, sample_lt t l⟩) := by
  unfold iblk
  rw [View.read_apply]
  show V m c main_v1 _ = _
  rw [V_v1]
  refine shapeCast_apply _ _ _ (ix1 ⟨t.val * 32768 + l.val, sample_lt t l⟩) ?_
  rw [Shape.rowMajor_val_two, Shape.rowMajor_val_one]
  show t.val * 32768 + l.val
    = (win0_1.index t 0 * 1 + 1 * (0 : Fin 1).val) * 4194304 + (win0_1.index t 1 * 32768 + 1 * l.val)
  rw [(hidx1 t).1, (hidx1 t).2]
  show t.val * 32768 + l.val = (0 * 1 + 1 * 0) * 4194304 + (t.val * 32768 + 1 * l.val)
  omega

theorem blk2_apply (c : Dev nD) (t : Fin cfg0.N) (cls : Fin 12) :
    (iblk m c 2 t : Vec Ideal S12x1 .f32) (ix2 cls (0 : Fin 1)) = Loss.weightTab cls := by
  unfold iblk
  rw [View.read_apply]
  show V m c main_v2 _ = _
  rw [V_v2]
  refine (shapeCast_apply _ _ _ (ix1 cls) ?_).trans ?_
  · rw [Shape.rowMajor_val_two, Shape.rowMajor_val_one]
    show cls.val = (win0_2.index t 0 * 12 + 1 * cls.val) * 1 + (win0_2.index t 1 * 1 + 1 * (0 : Fin 1).val)
    rw [(hidx2 t).1, (hidx2 t).2]
    show cls.val = (0 * 12 + 1 * cls.val) * 1 + (0 * 1 + 1 * 0)
    omega
  · show Ideal.ofBits .f32 (lit0 (S12.rowMajor (ix1 cls))) = Ideal.ofBits .f32 (Loss.weightWord cls)
    rw [rowMajor_ix1, lit0_eq]

end Cert.KernelIdeal.In
end
-- ==== Proof.KAcc.lean ====
/-
  The accumulator tile over the grid: after the last point of half cc the tile holds, at (0, 0), the sum over the
  half's 64 blocks of the blocks' smoothed totals, at (0, 1) the sum of their label log-probability totals, and zero
  elsewhere; each half's tile is written back to rows 8 cc … 8 cc + 7 of the output array.
-/
import proofs.«428217_j5540507811956_3_alg».proof.Proof.KNames
import proofs.«428217_j5540507811956_3_alg».proof.Proof.KBody
import proofs.«428217_j5540507811956_3_alg».proof.Proof.KPaySlot
import proofs.«428217_j5540507811956_3_alg».proof.Proof.KPayRow
import proofs.«428217_j5540507811956_3_alg».proof.Proof.KIn
import Idealize.ShloMosaic.Lib.Pipeline.Value
import Idealize.ShloMosaic.Lib.Tactic

noncomputable section
open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.KernelIdeal.Names

variable (m : (ℓ : Loc nD τ sig) → Buf (Elt Ideal) ℓ)

/-- The tile's pattern is additive in its two totals. -/
theorem slot_add (r : Fin 8) (q : Fin 128) (a b a' b' : EReal) :
    Loss.slot r q a b + Loss.slot r q a' b' = Loss.slot r q (a + a') (b + b') := by
  unfold Loss.slot
  by_cases h0 : r.val = 0 ∧ q.val = 0
  · rw [if_pos h0, if_pos h0, if_pos h0]
  · rw [if_neg h0, if_neg h0, if_neg h0]
    by_cases h1 : r.val = 0 ∧ q.val = 1
    · rw [if_pos h1, if_pos h1, if_pos h1]
    · rw [if_neg h1, if_neg h1, if_neg h1, add_zero]

/-- Block t's first scalar is the block's total of the smoothed terms. -/
theorem pay6_block (c : Dev nD) (t : Fin cfg0.N) :
    k0_pay6 (F := Ideal) (iblk m c 0 t) (iblk m c 1 t) (iblk m c 2 t) = blockTerm m c t := by
  rw [PayRow.pay6_eq _ _ _ (In.blk2_apply m c t)]
  unfold blockTerm
  refine Finset.sum_congr rfl fun l _ => ?_
  rw [In.blk1_apply m c t l]
  congr 1
  funext cls
  exact In.blk0_apply m c t cls l

/-- Block t's vector sums to the block's total of the labels' log-probabilities. -/
theorem pay7_block (c : Dev nD) (t : Fin cfg0.N) :
    (∑ l : Fin 32768, k0_pay7 (F := Ideal) (iblk m c 0 t) (iblk m c 1 t) (ix3 (0 : Fin 1) (0 : Fin 1) l)) = blockPicked m c t := by
  unfold blockPicked
  refine Finset.sum_congr rfl fun l _ => ?_
  rw [PayRow.pay7_apply, In.blk1_apply m c t l]
  congr 1
  funext cls
  exact In.blk0_apply m c t cls l

/-- The accumulating store at point t adds the block's two totals into the tile's pattern. -/
theorem step_apply (c : Dev nD) (t : Fin cfg0.N) (o : Vec Ideal S8x128 .f32) (r : Fin 8) (q : Fin 128) :
    k0_pay1 (F := Ideal) (k0_pay6 (iblk m c 0 t) (iblk m c 1 t) (iblk m c 2 t)) (k0_pay7 (iblk m c 0 t) (iblk m c 1 t)) o (ix2 r q)
      = o (ix2 r q) + Loss.slot r q (blockTerm m c t) (blockPicked m c t) := by
  rw [PaySlot.pay1_apply, pay6_block, pay7_block]

/-- After a half's first point the tile holds the pattern of that block's totals. -/
theorem outsAt_A_apply (c : Dev nD) (t : Fin cfg0.N) (h0 : t.val % 64 = 0) (r : Fin 8) (q : Fin 128) :
    outsAt0 m c t.val t.isLt (ix2 r q) = Loss.slot r q (blockTerm m c t) (blockPicked m c t) := by
  rw [outsAt0_A m c t h0]
  rw [Body.out_A c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t)]
  rw [step_apply, PaySlot.pay2_apply, zero_add]

/-- After any other point the tile holds what the point before left plus the pattern of the block's totals. -/
theorem outsAt_B_apply (c : Dev nD) (t : Fin cfg0.N) (h0 : ¬t.val % 64 = 0) (r : Fin 8) (q : Fin 128) :
    outsAt0 m c t.val t.isLt (ix2 r q)
      = outsAt0 m c (t.val - 1) (Nat.lt_of_le_of_lt (Nat.sub_le _ _) t.isLt) (ix2 r q)
        + Loss.slot r q (blockTerm m c t) (blockPicked m c t) := by
  rw [outsAt0_B m c t h0]
  rw [Body.out_B c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 m c (t.val - 1) (Nat.lt_of_le_of_lt (Nat.sub_le _ _) t.isLt))]
  rw [step_apply]

/-- Block k's two totals as functions of every natural number (zero past the grid). -/
def termAt (c : Dev nD) (k : ℕ) : EReal := if h : k < cfg0.N then blockTerm m c ⟨k, h⟩ else 0
def pickedAt (c : Dev nD) (k : ℕ) : EReal := if h : k < cfg0.N then blockPicked m c ⟨k, h⟩ else 0

theorem termAt_of_lt (c : Dev nD) (k : ℕ) (h : k < cfg0.N) : termAt m c k = blockTerm m c ⟨k, h⟩ := dif_pos h
theorem pickedAt_of_lt (c : Dev nD) (k : ℕ) (h : k < cfg0.N) : pickedAt m c k = blockPicked m c ⟨k, h⟩ := dif_pos h

/-- The tile after a point depends on the point's number only. -/
theorem outsAt0_congr (c : Dev nD) (u v : ℕ) (hu : u < cfg0.N) (hv : v < cfg0.N) (e : u = v) :
    outsAt0 m c u hu = outsAt0 m c v hv := by subst e; rfl

/-- After point 64 h + j of half h the tile holds the pattern of the totals over the half's blocks 0 … j. -/
theorem outsAt_eq (c : Dev nD) (h : ℕ) : ∀ (j : ℕ) (_ : j < 64) (hn : 64 * h + j < cfg0.N) (r : Fin 8) (q : Fin 128),
    outsAt0 m c (64 * h + j) hn (ix2 r q)
      = Loss.slot r q (∑ b ∈ Finset.range (j + 1), termAt m c (64 * h + b))
          (∑ b ∈ Finset.range (j + 1), pickedAt m c (64 * h + b))
  | 0, _, hn, r, q => by
    have hA : (⟨64 * h + 0, hn⟩ : Fin cfg0.N).val % 64 = 0 := by dsimp only; omega
    rw [outsAt_A_apply m c ⟨64 * h + 0, hn⟩ hA r q, Finset.sum_range_one, Finset.sum_range_one,
      termAt_of_lt m c _ hn, pickedAt_of_lt m c _ hn]
  | j + 1, hj, hn, r, q => by
    have hB : ¬(⟨64 * h + (j + 1), hn⟩ : Fin cfg0.N).val % 64 = 0 := by dsimp only; omega
    have hp : 64 * h + j < cfg0.N := by omega
    rw [outsAt_B_apply m c ⟨64 * h + (j + 1), hn⟩ hB r q,
      outsAt0_congr m c _ (64 * h + j) _ hp (by dsimp only; omega),
      outsAt_eq c h j (by omega) hp r q, slot_add,
      Finset.sum_range_succ _ (j + 1), Finset.sum_range_succ _ (j + 1),
      termAt_of_lt m c _ hn, pickedAt_of_lt m c _ hn]

/-- A half's two totals. -/
def halfTerm (c : Dev nD) (h : ℕ) : EReal := ∑ b ∈ Finset.range (63 + 1), termAt m c (64 * h + b)
def halfPicked (c : Dev nD) (h : ℕ) : EReal := ∑ b ∈ Finset.range (63 + 1), pickedAt m c (64 * h + b)

/-- The whole output array: row ρ, column q holds the pattern at (ρ mod 8, q) of the totals of half ρ / 8. -/
def G (c : Dev nD) : Vec Ideal S16x128 .f32 := fun i =>
  Loss.slot ⟨(i 0).val % 8, Nat.mod_lt _ (by norm_num)⟩ ⟨(i 1).val, idx2_lt1 i⟩
    (halfTerm m c ((i 0).val / 8)) (halfPicked m c ((i 0).val / 8))

theorem G_apply (c : Dev nD) (i : S16x128.Idx) (h : ℕ) (r : Fin 8) (q : Fin 128)
    (e0 : (i 0).val = 8 * h + r.val) (e1 : (i 1).val = q.val) :
    G m c i = Loss.slot r q (halfTerm m c h) (halfPicked m c h) := by
  unfold G
  have hr : (⟨(i 0).val % 8, Nat.mod_lt _ (by norm_num)⟩ : Fin 8) = r :=
    Fin.ext (by show (i 0).val % 8 = r.val; have := r.isLt; omega)
  have hq : (⟨(i 1).val, idx2_lt1 i⟩ : Fin 128) = q := Fin.ext e1
  have hh : (i 0).val / 8 = h := by have := r.isLt; omega
  rw [hr, hq, hh]

/-- The output window's block index at point t: the half on the rows, zero on the columns. -/
theorem index3_0 (t : Fin cfg0.N) : win0_3.index t 0 = t.val / 64 := by
  have hN : t.val < 128 := lt_of_lt_of_eq t.isLt N_0
  show (BitVec.ofNat 32 (t.val / grid0.stride 0 % 2)).toNat = t.val / 64
  rw [show grid0.stride 0 = 64 from by decide, BitVec.toNat_ofNat]
  omega

theorem index3_1 (t : Fin cfg0.N) : win0_3.index t 1 = 0 := rfl

/-- The write-back at the last point of a half writes that half's block of the whole array. -/
theorem flushed_eq (c : Dev nD) (t : Fin cfg0.N) (hf : (cfg0.win 3).flush t = true) :
    (dats m 0 c).flushed 3 t = ((cfg0.win 3).blk t).view.read (Elt Ideal) (G m c) := by
  have h63 : t.val % 64 = 63 := (flush0_3 t).mp hf
  have hN : t.val < 128 := lt_of_lt_of_eq t.isLt N_0
  show (cfg0.win 3).cut (grid0.coords t) ((dats m 0 c).after 3 t) = _
  rw [after0_3]
  funext j
  have hj : (cfg0.win 3).xinj (grid0.coords t) j = ix2 (⟨(j 0).val, (j 0).isLt⟩ : Fin 8) (⟨(j 1).val, (j 1).isLt⟩ : Fin 128) := by
    funext a
    match a with
    | ⟨0, _⟩ => rfl
    | ⟨1, _⟩ => rfl
  show outsAt0 m c t.val t.isLt ((cfg0.win 3).xinj (grid0.coords t) j) = G m c (((cfg0.win 3).blk t).view.emb j)
  have e0 : ((((cfg0.win 3).blk t).view.emb j) 0).val = 8 * (t.val / 64) + (j 0).val := by
    show win0_3.index t (0 : Fin 2) * 8 + 1 * (j 0).val = _
    rw [index3_0]; omega
  have e1 : ((((cfg0.win 3).blk t).view.emb j) 1).val = (j 1).val := by
    show win0_3.index t (1 : Fin 2) * 128 + 1 * (j 1).val = _
    rw [index3_1]; omega
  rw [hj, G_apply m c _ (t.val / 64) ⟨(j 0).val, (j 0).isLt⟩ ⟨(j 1).val, (j 1).isLt⟩ e0 e1,
    outsAt0_congr m c t.val (64 * (t.val / 64) + 63) t.isLt (by omega) (by omega),
    outsAt_eq m c (t.val / 64) 63 (by norm_num) (by omega)]
  rfl

theorem final3_apply (c : Dev nD) (cc : Fin 2) (r : Fin 8) (q : Fin 128) :
    outArr m c (ix2 ⟨8 * cc.val + r.val, row_lt cc r⟩ q)
      = Loss.slot r q (∑ b : Fin 64, blockTerm m c ⟨64 * cc.val + b.val, point_lt cc b⟩)
          (∑ b : Fin 64, blockPicked m c ⟨64 * cc.val + b.val, point_lt cc b⟩) := by
  have ht : 64 * cc.val + 63 < cfg0.N := point_lt cc ⟨63, by norm_num⟩
  have hf : (cfg0.win 3).flush ⟨64 * cc.val + 63, ht⟩ = true := (flush0_3 _).mpr (by dsimp only; omega)
  have hmem : (ix2 ⟨8 * cc.val + r.val, row_lt cc r⟩ q : S16x128.Idx) ∈ ((cfg0.win 3).blk ⟨64 * cc.val + 63, ht⟩).view.set := by
    show _ ∈ ((View.whole main_v3).slice (win0_3.rect ⟨64 * cc.val + 63, ht⟩)).set
    rw [View.set_slice_whole, Rect.mem_set_unit]
    intro a
    have hc := cc.isLt
    have hr := r.isLt
    have hq := q.isLt
    match a with
    | ⟨0, _⟩ =>
      show win0_3.index ⟨64 * cc.val + 63, ht⟩ 0 * 8 ≤ 8 * cc.val + r.val
        ∧ 8 * cc.val + r.val < win0_3.index ⟨64 * cc.val + 63, ht⟩ 0 * 8 + 8
      rw [index3_0]; dsimp only; omega
    | ⟨1, _⟩ =>
      show win0_3.index ⟨64 * cc.val + 63, ht⟩ 1 * 128 ≤ q.val
        ∧ q.val < win0_3.index ⟨64 * cc.val + 63, ht⟩ 1 * 128 + 128
      rw [index3_1]; omega
  refine ((dats m 0 c).arrAt_apply_of_mem 3 (G m c) (flushed_eq m c) cfg0.N ⟨64 * cc.val + 63, ht⟩ _ ht hf hmem).trans ?_
  have hT : halfTerm m c cc.val = ∑ b : Fin 64, blockTerm m c ⟨64 * cc.val + b.val, point_lt cc b⟩ := by
    unfold halfTerm
    rw [Finset.sum_range]
    exact Finset.sum_congr rfl fun b _ => termAt_of_lt m c _ (point_lt cc b)
  have hP : halfPicked m c cc.val = ∑ b : Fin 64, blockPicked m c ⟨64 * cc.val + b.val, point_lt cc b⟩ := by
    unfold halfPicked
    rw [Finset.sum_range]
    exact Finset.sum_congr rfl fun b _ => pickedAt_of_lt m c _ (point_lt cc b)
  rw [G_apply m c _ cc.val r q rfl rfl, hT, hP]

end Cert.KernelIdeal.Acc
end
-- ==== Proof.KTail.lean ====
/-
  The host operations after the kernel: column 0 and column 1 of the 16 × 128 output array are each summed over the
  sixteen rows, negated, divided by the sample count, scaled by 0.4 and 0.6, and added.
-/
import proofs.«428217_j5540507811956_3_alg».proof.Proof.KNames
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.Tactic

noncomputable section
open scoped BigOperators
open Idealize.ShloMosaic Idealize.ShloMosaic.TcCoe Idealize.SL.Sem Idealize.ShloMosaic.ValueIdx
open Idealize.ShloMosaic.Pipeline (Dat)

namespace Cert.KernelIdeal.Tail
open Cert.KernelIdeal Cert.KernelIdeal.Gen Cert.KernelIdeal.Names

variable (m : (ℓ : Loc nD τ sig) → Buf (Elt Ideal) ℓ)

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-- A column of a 16 × 128 array, sliced out as a 16 × 1 block and flattened, read at row a. -/
theorem col_apply {α : Type} (o : S16x128.Idx → α) (q : Fin 128) (off : Fin 2 → Nat) (hoff : off = ![0, q.val])
    (h : S16x128.Slices off S16x1) (hc : S16x1.ShapeCasts S16) (a : Fin 16) :
    shapeCast S16 (extractStridedSlice S16x1 off o h) hc (ix1 a) = o (ix2 a q) := by
  subst hoff
  rw [shapeCast_apply _ hc (ix1 a) (ix2 a (0 : Fin 1)) (by
    rw [Shape.rowMajor_val_two, Shape.rowMajor_val_one]
    show a.val * 1 + 0 = a.val
    omega)]
  unfold extractStridedSlice
  congr 1
  funext d
  apply Fin.ext
  match d with
  | ⟨0, _⟩ => show 0 + a.val = a.val; omega
  | ⟨1, _⟩ => show q.val + 0 = q.val; omega

/-- The host's sum of such a column from an initial value: the initial value plus the sum of the column's sixteen entries. -/
theorem col_sum (o : Vec Ideal S16x128 .f32) (q : Fin 128) (off : Fin 2 → Nat) (hoff : off = ![0, q.val])
    (h : S16x128.Slices off S16x1) (hc : S16x1.ShapeCasts S16) (hr : S16.ReducesTo [0] S_) (hu : 0 < S_.numel)
    (init : S_.Idx → Ideal .f32) :
    Host.reduceAdd (F := Ideal) (fun i => shapeCast S16 (extractStridedSlice S16x1 off o h) hc i) init hr hu
      = fun _ => init (Shape.Idx.first hu) + ∑ a : Fin 16, o (ix2 a q) := by
  funext j
  unfold Host.reduceAdd
  rw [Ideal.hostReduceAdd_def, Ideal.hostReduceAdd_total hr (fun b => b.elim0)]
  congr 1
  refine (sum_idx1 _).trans (Finset.sum_congr rfl fun k _ => ?_)
  exact col_apply o q off hoff h hc k

/-- The operations after the kernel, over any 16 × 128 array. -/
theorem tail_fn (o : Vec Ideal S16x128 .f32) :
    addf (mulf (constant S_ .f32 0x3F19999A#32)
        (Host.divf (Host.negf (Host.reduceAdd (F := Ideal)
          (fun i => shapeCast S16 (extractStridedSlice S16x1 ![0, 1] o slices_S16x128_S16x1_0_1) shapeCasts_S16x1_S16 i)
          (constant S_ .f32 0x00000000#32) reducesTo_S16_S_d0 h_S_)) (constant S_ .f32 0x4A800000#32)))
      (mulf (constant S_ .f32 0x3ECCCCCD#32)
        (Host.divf (Host.negf (Host.reduceAdd (F := Ideal)
          (fun i => shapeCast S16 (extractStridedSlice S16x1 ![0, 0] o slices_S16x128_S16x1_0_0) shapeCasts_S16x1_S16 i)
          (constant S_ .f32 0x00000000#32) reducesTo_S16_S_d0 h_S_)) (constant S_ .f32 0x4A800000#32)))
      = fun _ => Loss.lossNegFirst
          (Ideal.ofBits .f32 0x00000000#32 + ∑ a : Fin 16, o (ix2 a (0 : Fin 128)))
          (Ideal.ofBits .f32 0x00000000#32 + ∑ a : Fin 16, o (ix2 a (1 : Fin 128))) := by
  rw [col_sum o 1 ![0, 1] rfl, col_sum o 0 ![0, 0] rfl]
  funext j
  unfold Loss.lossNegFirst
  simp only [addf, mulf, Host.divf, Host.negf, constant, Ideal.addf_def, Ideal.mulf_def, Ideal.hostDivf_def,
    Ideal.hostNegf_def, Ideal.negf_def, Ideal.ofBits_def]

theorem tail_eq (c : Dev nD) :
    (Pipeline.afterTail₀ cfgs (dats m) 0 (V0 m) [hostOps1] c main_v16 : FVec Ideal S_ .f32)
      = fun _ => Loss.lossNegFirst
          (Ideal.ofBits .f32 0x00000000#32 + ∑ a : Fin 16, outArr m c (ix2 a (0 : Fin 128)))
          (Ideal.ofBits .f32 0x00000000#32 + ∑ a : Fin 16, outArr m c (ix2 a (1 : Fin 128))) := by
  unfold Pipeline.afterTail₀
  simp only [List.flatten_cons, List.flatten_nil, List.append_nil]
  show StableHlo.after hostOps1 _ (Proc.devRef .tc main_v16) = _
  after_results
  have e : Pipeline.withArrays (cfgs 0).spec c (V0 m c) (fun w => (dats m 0 c).arrAt w (cfgs 0).N) (Proc.devRef .tc main_v3)
      = outArr m c := Pipeline.withArrays_arr spec0 winFacts0.arr_inj c _ _ 3
  rw [e]
  exact tail_fn (outArr m c)

end Cert.KernelIdeal.Tail
end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.KRun.lean ====
/-
  The kernel program's run read as a value: its result buffer ends at the loss of the two argument arrays.

  After the run the 16 × 128 output array holds, in row 8 cc of column 0 and column 1, half cc's two totals, and
  zero in every other row of those columns; so a column's sum over the sixteen rows is the sum over the two halves,
  each half's total is the sum over its 64 blocks, and each block's total the sum over its 32768 samples: the sum over
  all 4194304 samples, regrouped block by block.
-/
import proofs.«428217_j5540507811956_3_alg».proof.Proof.KAcc
import proofs.«428217_j5540507811956_3_alg».proof.Proof.KTail
import proofs.«428217_j5540507811956_3_alg».proof.Proof.LibSums

noncomputable section
open scoped BigOperators
open Idealize.ShloMosaic Idealize.ShloMosaic.TcCoe Idealize.SL.Sem Idealize.ShloMosaic.ValueIdx
open Idealize.ShloMosaic.Pipeline (Dat)

namespace Cert.KernelIdeal.Value
open Cert.KernelIdeal Cert.KernelIdeal.Gen Cert.KernelIdeal.Names

variable (m : (ℓ : Loc nD τ sig) → Buf (Elt Ideal) ℓ) (ρ : Dev nD → PrngReg)

/-- Sixteen rows are two halves of eight. -/
theorem sum_rows (f : Fin 16 → EReal) :
    ∑ a : Fin 16, f a = ∑ cc : Fin 2, ∑ r : Fin 8, f ⟨8 * cc.val + r.val, row_lt cc r⟩ := by
  refine (LibSums.sum_blocks 2 8 f).symm.trans ?_
  refine Finset.sum_congr rfl fun cc _ => Finset.sum_congr rfl fun r _ => congrArg f (Fin.ext ?_)
  show cc.val * 8 + r.val = 8 * cc.val + r.val
  omega

/-- Down column 0 of a tile only row 0 carries anything: the first total. -/
theorem slot_sum0 (A B : EReal) : ∑ r : Fin 8, Loss.slot r (0 : Fin 128) A B = A := by
  rw [Finset.sum_eq_single (0 : Fin 8)]
  · unfold Loss.slot; rw [if_pos ⟨rfl, rfl⟩]
  · intro r _ hr
    have hr' : r.val ≠ 0 := fun h => hr (Fin.ext h)
    unfold Loss.slot
    rw [if_neg (fun h => hr' h.1), if_neg (fun h => hr' h.1)]
  · intro h; exact absurd (Finset.mem_univ _) h

/-- Down column 1 only row 0 carries anything: the second total. -/
theorem slot_sum1 (A B : EReal) : ∑ r : Fin 8, Loss.slot r (1 : Fin 128) A B = B := by
  rw [Finset.sum_eq_single (0 : Fin 8)]
  · unfold Loss.slot; rw [if_neg (by decide), if_pos ⟨rfl, rfl⟩]
  · intro r _ hr
    have hr' : r.val ≠ 0 := fun h => hr (Fin.ext h)
    unfold Loss.slot
    rw [if_neg (fun h => hr' h.1), if_neg (fun h => hr' h.1)]
  · intro h; exact absurd (Finset.mem_univ _) h

/-- Grid point k as a point of the pipeline. -/
abbrev pt (k : Fin 128) : Fin cfg0.N := ⟨k.val, by rw [show cfg0.N = 128 from N_0]; exact k.isLt⟩

/-- The two halves' 64 blocks are the 128 blocks. -/
theorem sum_halves (f : Fin cfg0.N → EReal) :
    ∑ cc : Fin 2, ∑ b : Fin 64, f ⟨64 * cc.val + b.val, point_lt cc b⟩ = ∑ k : Fin 128, f (pt k) := by
  refine Eq.trans ?_ (LibSums.sum_blocks 2 64 fun k : Fin (2 * 64) => f (pt k))
  refine Finset.sum_congr rfl fun cc _ => Finset.sum_congr rfl fun b _ => congrArg f (Fin.ext ?_)
  show 64 * cc.val + b.val = cc.val * 64 + b.val
  omega

/-- The 128 blocks of 32768 samples are the 4194304 samples. -/
theorem sum_samples (g : Fin 4194304 → EReal) :
    ∑ k : Fin 128, ∑ l : Fin 32768, g ⟨(pt k).val * 32768 + l.val, sample_lt (pt k) l⟩ = ∑ s : Fin 4194304, g s :=
  LibSums.sum_blocks 128 32768 g

theorem col0_sum (c : Dev nD) :
    ∑ a : Fin 16, outArr m c (ix2 a (0 : Fin 128)) = Loss.totTerm (scores m c) (labels m c) := by
  rw [sum_rows]
  simp only [Acc.final3_apply, slot_sum0]
  rw [sum_halves (blockTerm m c)]
  exact sum_samples fun s => Loss.term (Loss.rowOf (scores m c) s) (labels m c (ix1 s))

theorem col1_sum (c : Dev nD) :
    ∑ a : Fin 16, outArr m c (ix2 a (1 : Fin 128)) = Loss.totPicked (scores m c) (labels m c) := by
  rw [sum_rows]
  simp only [Acc.final3_apply, slot_sum1]
  rw [sum_halves (blockPicked m c)]
  exact sum_samples fun s => Loss.picked (Loss.rowOf (scores m c) s) (labels m c (ix1 s))

/-- The result buffer after the host operations that follow the kernel. -/
theorem result_eq (c : Dev nD) :
    (Pipeline.afterTail₀ cfgs (dats m) 0 (V0 m) [hostOps1] c main_v16 : FVec Ideal S_ .f32)
      = Loss.loss (scores m c) (labels m c) := by
  rw [Tail.tail_eq, col0_sum, col1_sum, Ideal.ofBits_zero_f32, zero_add, zero_add]
  rfl

theorem run : θ_run defs (onTc (τ := τ) (main (F := Ideal))) ⟨m, fun _ => 0, ρ⟩ (fun r => ∀ c : Dev nD,
      r.2.mem ((c.tc : Thread nD τ).loc main_v16) = Loss.loss (scores m c) (labels m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Value
end
-- ==== Proof.RefTerm.lean ====
/-
  The reference program's result as one pure term of its two argument arrays, stage by stage, in the order and with
  the operations of its printed text: the row-wise log-softmax, the wrap of a negative label by twelve, the lookup of
  the label's log-probability (a gather guarded by a range test that selects the NaN pattern outside 0 … 11), the
  lookup of the label's weight in the twelve-entry table, the per-sample term, the two sums over the samples, and the
  closing arithmetic.
-/
import proofs.«428217_j5540507811956_3_alg».proof.ReferenceIdeal

noncomputable section

namespace Cert.ReferenceIdeal.RefTerm

open Idealize.ShloMosaic Cert.ReferenceIdeal

variable {F : FTy → Type} [FloatOps F] [Facts]
open Facts₀ Facts

/-- The twelve-entry weight table. -/
def table : FVec F S12 .f32 := fun i => FloatOps.ofBits .f32 (lit0 (S12.rowMajor i))

/-- The row-wise log-softmax: x − max − log ∑ exp (x − max). -/
def logSoftmax (X : FVec F S4194304x12 .f32) : FVec F S4194304x12 .f32 :=
  let v0 : FVec F S4194304 .f32 := Host.reduce FloatOps.maximumf X (constant S_ .f32 0xFF800000#32) reducesTo_S4194304x12_S4194304_d1 h_S_
  let v1 : FVec F S4194304 .f32 := broadcastInDim S4194304 ![] bcast_S_S4194304 (constant S_ .f32 0xFF800000#32)
  let v2 : FVec F S4194304 .f32 := maximumf v1 v0
  let v3 : FVec F S4194304x1 .f32 := broadcastInDim S4194304x1 ![0] bcast_S4194304_S4194304x1_0 v2
  let v4 : FVec F S4194304x12 .f32 := broadcastInDim S4194304x12 ![0, 1] bcast_S4194304x1_S4194304x12_0_1 v3
  let v5 : FVec F S4194304x12 .f32 := subf X v4
  let v6 : FVec F S4194304x12 .f32 := Host.exp v5
  let v7 : FVec F S4194304 .f32 := Host.reduceAdd v6 (constant S_ .f32 0x00000000#32) reducesTo_S4194304x12_S4194304_d1 h_S_
  let v8 : FVec F S4194304x1 .f32 := broadcastInDim S4194304x1 ![0] bcast_S4194304_S4194304x1_0 v7
  let v9 : FVec F S4194304x1 .f32 := Host.log v8
  let v10 : FVec F S4194304x12 .f32 := broadcastInDim S4194304x12 ![0, 1] bcast_S4194304x1_S4194304x12_0_1 v9
  subf v5 v10

/-- The label's log-probability: the labels as a column, a negative one moved up by twelve, the gather along the
    class axis, and the NaN pattern where the moved label is outside 0 … 11. -/
def takeAlong (L : FVec F S4194304x12 .f32) (T2 : IVec S4194304x1 32) : FVec F S4194304x1 .f32 :=
  let v1 : IVec S4194304x1 1 := cmpi .slt T2 (broadcastInDim S4194304x1 ![] bcast_S_S4194304x1 (constantI S_ 32 0#32))
  let v3 : IVec S4194304x1 32 := addi T2 (broadcastInDim S4194304x1 ![] bcast_S_S4194304x1 (constantI S_ 32 12#32))
  let v4 : IVec S4194304x1 32 := select v1 v3 T2
  let v5 : IVec S4194304x1x1 32 := shapeCast S4194304x1x1 v4 shapeCasts_S4194304x1_S4194304x1x1
  let v7 : IVec S4194304x1x1 1 := cmpi .sge v5 (broadcastInDim S4194304x1x1 ![] bcast_S_S4194304x1x1 (constantI S_ 32 0#32))
  let v9 : IVec S4194304x1x1 32 := broadcastInDim S4194304x1x1 ![0, 1, 2] bcast_S1x1x1_S4194304x1x1_0_1_2
    (broadcastInDim S1x1x1 ![2] bcast_S1_S1x1x1_2 (constantI S1 32 11#32))
  let v10 : IVec S4194304x1x1 1 := cmpi .sle v5 v9
  let v11 : IVec S4194304x1x1 1 := andi v7 v10
  let v12 : IVec S4194304x1 1 := Host.reduce IntOp.andi v11 (constantI S_ 1 1#1) reducesTo_S4194304x1x1_S4194304x1_d2 h_S_
  let v13 : FVec F S4194304x1 .f32 := Host.gather gather_S4194304x12_S4194304x1x1_S4194304x1_n_1_0_0_1_2_11 L v5
  let v14 : FVec F S4194304x1 .f32 := broadcastInDim S4194304x1 ![] bcast_S_S4194304x1 (constant S_ .f32 0x7FC00000#32)
  select v12 v13 v14

/-- The label's weight: a negative label moved up by twelve, then the gather from the table. -/
def weightOf (T : IVec S4194304 32) : FVec F S4194304 .f32 :=
  let v6 : IVec S4194304 1 := cmpi .slt T (broadcastInDim S4194304 ![] bcast_S_S4194304 (constantI S_ 32 0#32))
  let v8 : IVec S4194304 32 := addi T (broadcastInDim S4194304 ![] bcast_S_S4194304 (constantI S_ 32 12#32))
  let v9 : IVec S4194304 32 := select v6 v8 T
  let v10 : IVec S4194304x1 32 := broadcastInDim S4194304x1 ![0] bcast_S4194304_S4194304x1_0 v9
  Host.gather gather_S12_S4194304x1_S4194304_n_0_n_n_0_1_1 (table (F := F)) v10

/-- The per-sample log-probability of the label, as a vector over the samples. -/
def pickedVec (X : FVec F S4194304x12 .f32) (T : IVec S4194304 32) : FVec F S4194304 .f32 :=
  shapeCast S4194304 (takeAlong (logSoftmax X) (broadcastInDim S4194304x1 ![0] bcast_S4194304_S4194304x1_0 T)) shapeCasts_S4194304x1_S4194304

/-- The per-sample smoothed term, as a vector over the samples. -/
def termVec (X : FVec F S4194304x12 .f32) (T : IVec S4194304 32) : FVec F S4194304 .f32 :=
  let v1 : FVec F S4194304 .f32 := Host.reduceAdd (logSoftmax X) (constant S_ .f32 0x00000000#32) reducesTo_S4194304x12_S4194304_d1 h_S_
  addf (mulf (weightOf (F := F) T) (subf v1 (pickedVec X T))) (pickedVec X T)

/-- The reference's result. -/
def result (X : FVec F S4194304x12 .f32) (T : IVec S4194304 32) : FVec F S_ .f32 :=
  let v15 : FVec F S_ .f32 := Host.reduceAdd (termVec X T) (constant S_ .f32 0x00000000#32) reducesTo_S4194304_S_d0 h_S_
  let v17 : FVec F S_ .f32 := Host.negf (Host.divf v15 (constant S_ .f32 0x4A800000#32))
  let v18 : FVec F S_ .f32 := Host.reduceAdd (pickedVec X T) (constant S_ .f32 0x00000000#32) reducesTo_S4194304_S_d0 h_S_
  let v20 : FVec F S_ .f32 := Host.negf (Host.divf v18 (constant S_ .f32 0x4A800000#32))
  addf (mulf (constant S_ .f32 0x3F19999A#32) v20) (mulf (constant S_ .f32 0x3ECCCCCD#32) v17)

end Cert.ReferenceIdeal.RefTerm

end
-- ==== Proof.RRun.lean ====
/-
  The reference program's run: its operations in order (the two outlined functions' operations in place of their
  calls), every weakly fair execution ending with the result buffer at the composed term of the two arguments and
  the arguments unchanged.
-/
import proofs.«428217_j5540507811956_3_alg».proof.Proof.Gen.ReferenceIdeal
import proofs.«428217_j5540507811956_3_alg».proof.Proof.RefTerm
import Idealize.ShloMosaic.Lib.StableHlo.Run
import Idealize.ShloMosaic.Lib.ValueIdx
import Idealize.ShloMosaic.Lib.Tactic

noncomputable section
open scoped BigOperators
open Idealize.ShloMosaic Idealize.ShloMosaic.TcCoe Idealize.SL.Sem Idealize.ShloMosaic.ValueIdx

namespace Cert.ReferenceIdeal.Run
open Cert.ReferenceIdeal Cert.ReferenceIdeal.Gen Idealize.ShloMosaic.StableHlo

variable {F : FTy → Type} [FloatOps F]

/-- The operations in order: the weight table; the fifteen of the row-wise log-softmax over the first call's
    buffers; the row sums and the labels as a column; the twenty-two of the lookup along the class axis over the
    second call's buffers; the per-sample term, the two sums over the samples and the closing arithmetic. -/
abbrev ops : List (HloOp τ sig (Elt F)) :=
  [ nullary main_cst (fun i => FloatOps.ofBits .f32 (lit0 (S12.rowMajor i))),
    -- the row-wise log-softmax
    nullary main_call0_cst (constant S_ .f32 0xFF800000#32),
    binary main_arg0 main_call0_cst main_call0_v0 ((fun x v => Host.reduce FloatOps.maximumf x v reducesTo_S4194304x12_S4194304_d1 h_S_) : (⟨S4194304x12, .f32⟩ : BufTy).Contents (Elt F) → (⟨S_, .f32⟩ : BufTy).Contents (Elt F) → (⟨S4194304, .f32⟩ : BufTy).Contents (Elt F)),
    nullary main_call0_cst_0 (constant S_ .f32 0xFF800000#32),
    unary main_call0_cst_0 main_call0_v1 (broadcastInDim S4194304 ![] bcast_S_S4194304 : (⟨S_, .f32⟩ : BufTy).Contents (Elt F) → (⟨S4194304, .f32⟩ : BufTy).Contents (Elt F)),
    binary main_call0_v1 main_call0_v0 main_call0_v2 (maximumf : (⟨S4194304, .f32⟩ : BufTy).Contents (Elt F) → (⟨S4194304, .f32⟩ : BufTy).Contents (Elt F) → (⟨S4194304, .f32⟩ : BufTy).Contents (Elt F)),
    unary main_call0_v2 main_call0_v3 (broadcastInDim S4194304x1 ![0] bcast_S4194304_S4194304x1_0 : (⟨S4194304, .f32⟩ : BufTy).Contents (Elt F) → (⟨S4194304x1, .f32⟩ : BufTy).Contents (Elt F)),
    unary main_call0_v3 main_call0_v4 (broadcastInDim S4194304x12 ![0, 1] bcast_S4194304x1_S4194304x12_0_1 : (⟨S4194304x1, .f32⟩ : BufTy).Contents (Elt F) → (⟨S4194304x12, .f32⟩ : BufTy).Contents (Elt F)),
    binary main_arg0 main_call0_v4 main_call0_v5 (subf : (⟨S4194304x12, .f32⟩ : BufTy).Contents (Elt F) → (⟨S4194304x12, .f32⟩ : BufTy).Contents (Elt F) → (⟨S4194304x12, .f32⟩ : BufTy).Contents (Elt F)),
    unary main_call0_v5 main_call0_v6 (Host.exp : (⟨S4194304x12, .f32⟩ : BufTy).Contents (Elt F) → (⟨S4194304x12, .f32⟩ : BufTy).Contents (Elt F)),
    nullary main_call0_cst_1 (constant S_ .f32 0x00000000#32),
    binary main_call0_v6 main_call0_cst_1 main_call0_v7 ((fun x v => Host.reduceAdd x v reducesTo_S4194304x12_S4194304_d1 h_S_) : (⟨S4194304x12, .f32⟩ : BufTy).Contents (Elt F) → (⟨S_, .f32⟩ : BufTy).Contents (Elt F) → (⟨S4194304, .f32⟩ : BufTy).Contents (Elt F)),
    unary main_call0_v7 main_call0_v8 (broadcastInDim S4194304x1 ![0] bcast_S4194304_S4194304x1_0 : (⟨S4194304, .f32⟩ : BufTy).Contents (Elt F) → (⟨S4194304x1, .f32⟩ : BufTy).Contents (Elt F)),
    unary main_call0_v8 main_call0_v9 (Host.log : (⟨S4194304x1, .f32⟩ : BufTy).Contents (Elt F) → (⟨S4194304x1, .f32⟩ : BufTy).Contents (Elt F)),
    unary main_call0_v9 main_call0_v10 (broadcastInDim S4194304x12 ![0, 1] bcast_S4194304x1_S4194304x12_0_1 : (⟨S4194304x1, .f32⟩ : BufTy).Contents (Elt F) → (⟨S4194304x12, .f32⟩ : BufTy).Contents (Elt F)),
    binary main_call0_v5 main_call0_v10 main_v0 (subf : (⟨S4194304x12, .f32⟩ : BufTy).Contents (Elt F) → (⟨S4194304x12, .f32⟩ : BufTy).Contents (Elt F) → (⟨S4194304x12, .f32⟩ : BufTy).Contents (Elt F)),
    -- the row sums of the log-probabilities, the labels as a column
    nullary main_cst_0 (constant S_ .f32 0x00000000#32),
    binary main_v0 main_cst_0 main_v1 ((fun x v => Host.reduceAdd x v reducesTo_S4194304x12_S4194304_d1 h_S_) : (⟨S4194304x12, .f32⟩ : BufTy).Contents (Elt F) → (⟨S_, .f32⟩ : BufTy).Contents (Elt F) → (⟨S4194304, .f32⟩ : BufTy).Contents (Elt F)),
    unary main_arg1 main_v2 (broadcastInDim S4194304x1 ![0] bcast_S4194304_S4194304x1_0 : (⟨S4194304, .i32⟩ : BufTy).Contents (Elt F) → (⟨S4194304x1, .i32⟩ : BufTy).Contents (Elt F)),
    -- the lookup along the class axis
    nullary main_call1_c (constantI S_ 32 0#32),
    unary main_call1_c main_call1_v0 (broadcastInDim S4194304x1 ![] bcast_S_S4194304x1 : (⟨S_, .i32⟩ : BufTy).Contents (Elt F) → (⟨S4194304x1, .i32⟩ : BufTy).Contents (Elt F)),
    binary main_v2 main_call1_v0 main_call1_v1 (cmpi .slt : (⟨S4194304x1, .i32⟩ : BufTy).Contents (Elt F) → (⟨S4194304x1, .i32⟩ : BufTy).Contents (Elt F) → (⟨S4194304x1, .i1⟩ : BufTy).Contents (Elt F)),
    nullary main_call1_c_0 (constantI S_ 32 12#32),
    unary main_call1_c_0 main_call1_v2 (broadcastInDim S4194304x1 ![] bcast_S_S4194304x1 : (⟨S_, .i32⟩ : BufTy).Contents (Elt F) → (⟨S4194304x1, .i32⟩ : BufTy).Contents (Elt F)),
    binary main_v2 main_call1_v2 main_call1_v3 (addi : (⟨S4194304x1, .i32⟩ : BufTy).Contents (Elt F) → (⟨S4194304x1, .i32⟩ : BufTy).Contents (Elt F) → (⟨S4194304x1, .i32⟩ : BufTy).Contents (Elt F)),
    ternary main_call1_v1 main_call1_v3 main_v2 main_call1_v4 (select : (⟨S4194304x1, .i1⟩ : BufTy).Contents (Elt F) → (⟨S4194304x1, .i32⟩ : BufTy).Contents (Elt F) → (⟨S4194304x1, .i32⟩ : BufTy).Contents (Elt F) → (⟨S4194304x1, .i32⟩ : BufTy).Contents (Elt F)),
    reshape main_call1_v4 main_call1_v5 rfl shapeCasts_S4194304x1_S4194304x1x1,
    nullary main_call1_c_1 (constantI S1 32 11#32),
    nullary main_call1_c_2 (constantI S_ 32 0#32),
    unary main_call1_c_2 main_call1_v6 (broadcastInDim S4194304x1x1 ![] bcast_S_S4194304x1x1 : (⟨S_, .i32⟩ : BufTy).Contents (Elt F) → (⟨S4194304x1x1, .i32⟩ : BufTy).Contents (Elt F)),
    binary main_call1_v5 main_call1_v6 main_call1_v7 (cmpi .sge : (⟨S4194304x1x1, .i32⟩ : BufTy).Contents (Elt F) → (⟨S4194304x1x1, .i32⟩ : BufTy).Contents (Elt F) → (⟨S4194304x1x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S4194304x1x1 ![0, 1, 2] bcast_S1x1x1_S4194304x1x1_0_1_2 : (⟨S1x1x1, .i32⟩ : BufTy).Contents (Elt F) → (⟨S4194304x1x1, .i32⟩ : BufTy).Contents (Elt F)),
    binary main_call1_v5 main_call1_v9 main_call1_v10 (cmpi .sle : (⟨S4194304x1x1, .i32⟩ : BufTy).Contents (Elt F) → (⟨S4194304x1x1, .i32⟩ : BufTy).Contents (Elt F) → (⟨S4194304x1x1, .i1⟩ : BufTy).Contents (Elt F)),
    binary main_call1_v7 main_call1_v10 main_call1_v11 (andi : (⟨S4194304x1x1, .i1⟩ : BufTy).Contents (Elt F) → (⟨S4194304x1x1, .i1⟩ : BufTy).Contents (Elt F) → (⟨S4194304x1x1, .i1⟩ : BufTy).Contents (Elt F)),
    nullary main_call1_c_3 (constantI S_ 1 1#1),
    binary main_call1_v11 main_call1_c_3 main_call1_v12 ((fun x v => Host.reduce IntOp.andi x v reducesTo_S4194304x1x1_S4194304x1_d2 h_S_) : (⟨S4194304x1x1, .i1⟩ : BufTy).Contents (Elt F) → (⟨S_, .i1⟩ : BufTy).Contents (Elt F) → (⟨S4194304x1, .i1⟩ : BufTy).Contents (Elt F)),
    binary main_v0 main_call1_v5 main_call1_v13 ((fun x i => Host.gather gather_S4194304x12_S4194304x1x1_S4194304x1_n_1_0_0_1_2_11 x i) : (⟨S4194304x12, .f32⟩ : BufTy).Contents (Elt F) → (⟨S4194304x1x1, .i32⟩ : BufTy).Contents (Elt F) → (⟨S4194304x1, .f32⟩ : BufTy).Contents (Elt F)),
    nullary main_call1_cst (constant S_ .f32 0x7FC00000#32),
    unary main_call1_cst main_call1_v14 (broadcastInDim S4194304x1 ![] bcast_S_S4194304x1 : (⟨S_, .f32⟩ : BufTy).Contents (Elt F) → (⟨S4194304x1, .f32⟩ : BufTy).Contents (Elt F)),
    ternary main_call1_v12 main_call1_v13 main_call1_v14 main_v3 (select : (⟨S4194304x1, .i1⟩ : BufTy).Contents (Elt F) → (⟨S4194304x1, .f32⟩ : BufTy).Contents (Elt F) → (⟨S4194304x1, .f32⟩ : BufTy).Contents (Elt F) → (⟨S4194304x1, .f32⟩ : BufTy).Contents (Elt F)),
    -- the label's log-probability as a vector, the label's weight, the per-sample term
    reshape main_v3 main_v4 rfl shapeCasts_S4194304x1_S4194304,
    nullary main_c (constantI S_ 32 0#32),
    unary main_c main_v5 (broadcastInDim S4194304 ![] bcast_S_S4194304 : (⟨S_, .i32⟩ : BufTy).Contents (Elt F) → (⟨S4194304, .i32⟩ : BufTy).Contents (Elt F)),
    binary main_arg1 main_v5 main_v6 (cmpi .slt : (⟨S4194304, .i32⟩ : BufTy).Contents (Elt F) → (⟨S4194304, .i32⟩ : BufTy).Contents (Elt F) → (⟨S4194304, .i1⟩ : BufTy).Contents (Elt F)),
    nullary main_c_1 (constantI S_ 32 12#32),
    unary main_c_1 main_v7 (broadcastInDim S4194304 ![] bcast_S_S4194304 : (⟨S_, .i32⟩ : BufTy).Contents (Elt F) → (⟨S4194304, .i32⟩ : BufTy).Contents (Elt F)),
    binary main_arg1 main_v7 main_v8 (addi : (⟨S4194304, .i32⟩ : BufTy).Contents (Elt F) → (⟨S4194304, .i32⟩ : BufTy).Contents (Elt F) → (⟨S4194304, .i32⟩ : BufTy).Contents (Elt F)),
    ternary main_v6 main_v8 main_arg1 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v9 main_v10 (broadcastInDim S4194304x1 ![0] bcast_S4194304_S4194304x1_0 : (⟨S4194304, .i32⟩ : BufTy).Contents (Elt F) → (⟨S4194304x1, .i32⟩ : BufTy).Contents (Elt F)),
    binary main_cst main_v10 main_v11 ((fun x i => Host.gather gather_S12_S4194304x1_S4194304_n_0_n_n_0_1_1 x i) : (⟨S12, .f32⟩ : BufTy).Contents (Elt F) → (⟨S4194304x1, .i32⟩ : BufTy).Contents (Elt F) → (⟨S4194304, .f32⟩ : BufTy).Contents (Elt F)),
    binary main_v1 main_v4 main_v12 (subf : (⟨S4194304, .f32⟩ : BufTy).Contents (Elt F) → (⟨S4194304, .f32⟩ : BufTy).Contents (Elt F) → (⟨S4194304, .f32⟩ : BufTy).Contents (Elt F)),
    binary main_v11 main_v12 main_v13 (mulf : (⟨S4194304, .f32⟩ : BufTy).Contents (Elt F) → (⟨S4194304, .f32⟩ : BufTy).Contents (Elt F) → (⟨S4194304, .f32⟩ : BufTy).Contents (Elt F)),
    binary main_v13 main_v4 main_v14 (addf : (⟨S4194304, .f32⟩ : BufTy).Contents (Elt F) → (⟨S4194304, .f32⟩ : BufTy).Contents (Elt F) → (⟨S4194304, .f32⟩ : BufTy).Contents (Elt F)),
    -- the two sums over the samples and the closing arithmetic
    nullary main_cst_2 (constant S_ .f32 0x00000000#32),
    binary main_v14 main_cst_2 main_v15 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_3 (constant S_ .f32 0x4A800000#32),
    binary main_v15 main_cst_3 main_v16 (Host.divf : (⟨S_, .f32⟩ : BufTy).Contents (Elt F) → (⟨S_, .f32⟩ : BufTy).Contents (Elt F) → (⟨S_, .f32⟩ : BufTy).Contents (Elt F)),
    unary main_v16 main_v17 (Host.negf : (⟨S_, .f32⟩ : BufTy).Contents (Elt F) → (⟨S_, .f32⟩ : BufTy).Contents (Elt F)),
    nullary main_cst_4 (constant S_ .f32 0x00000000#32),
    binary main_v4 main_cst_4 main_v18 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_5 (constant S_ .f32 0x4A800000#32),
    binary main_v18 main_cst_5 main_v19 (Host.divf : (⟨S_, .f32⟩ : BufTy).Contents (Elt F) → (⟨S_, .f32⟩ : BufTy).Contents (Elt F) → (⟨S_, .f32⟩ : BufTy).Contents (Elt F)),
    unary main_v19 main_v20 (Host.negf : (⟨S_, .f32⟩ : BufTy).Contents (Elt F) → (⟨S_, .f32⟩ : BufTy).Contents (Elt F)),
    nullary main_cst_6 (constant S_ .f32 0x3F19999A#32),
    binary main_cst_6 main_v20 main_v21 (mulf : (⟨S_, .f32⟩ : BufTy).Contents (Elt F) → (⟨S_, .f32⟩ : BufTy).Contents (Elt F) → (⟨S_, .f32⟩ : BufTy).Contents (Elt F)),
    nullary main_cst_7 (constant S_ .f32 0x3ECCCCCD#32),
    binary main_cst_7 main_v17 main_v22 (mulf : (⟨S_, .f32⟩ : BufTy).Contents (Elt F) → (⟨S_, .f32⟩ : BufTy).Contents (Elt F) → (⟨S_, .f32⟩ : BufTy).Contents (Elt F)),
    binary main_v21 main_v22 main_v23 (addf : (⟨S_, .f32⟩ : BufTy).Contents (Elt F) → (⟨S_, .f32⟩ : BufTy).Contents (Elt F) → (⟨S_, .f32⟩ : BufTy).Contents (Elt F)) ]

attribute [local irreducible] Host.reduce Host.reduceAdd Host.gather in
set_option maxRecDepth 8192 in
/-- The program is that straight line: each of the two functions' bodies, at its call, is its operations in order
    over the call's buffers. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., binary_bufs_sub ..,
    nullary_bufs_sub .., binary_bufs_sub .., nullary_bufs_sub .., binary_bufs_sub .., unary_bufs_sub .., nullary_bufs_sub ..,
    binary_bufs_sub .., nullary_bufs_sub .., binary_bufs_sub .., unary_bufs_sub .., nullary_bufs_sub .., binary_bufs_sub ..,
    nullary_bufs_sub .., binary_bufs_sub .., binary_bufs_sub ..⟩

attribute [local irreducible] Host.reduce Host.reduceAdd Host.gather in
set_option maxRecDepth 8192 in
set_option maxHeartbeats 2000000 in
/-- After the operations the result buffer holds the composed term of the two arguments' contents: each operation
    leaves its function's value at its own buffer and every other buffer as it was. -/
theorem result_eq (V : Valuation τ sig (Elt F)) :
    after ops V (main_v23 : DevRef τ sig)
      = RefTerm.result (F := F) (V (main_arg0 : DevRef τ sig)) (V (main_arg1 : DevRef τ sig)) := by
  after_results_simp
  rfl

set_option maxRecDepth 8192 in
set_option maxHeartbeats 2000000 in
/-- No operation writes the first argument. -/
theorem arg0_eq (V : Valuation τ sig (Elt F)) :
    after ops V (main_arg0 : DevRef τ sig) = V (main_arg0 : DevRef τ sig) := by
  after_results_simp

set_option maxRecDepth 8192 in
set_option maxHeartbeats 2000000 in
/-- No operation writes the second argument. -/
theorem arg1_eq (V : Valuation τ sig (Elt F)) :
    after ops V (main_arg1 : DevRef τ sig) = V (main_arg1 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v23)
          = RefTerm.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v23).trans (result_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Run
end
-- ==== Proof.RReadSoftmax.lean ====
/-
  The reference's row-wise log-softmax read at (sample, class): the specification's log-probability of that class
  on that sample's row.
-/
import proofs.«428217_j5540507811956_3_alg».proof.Proof.Gen.ReferenceIdeal
import proofs.«428217_j5540507811956_3_alg».proof.Proof.RefTerm
import proofs.«428217_j5540507811956_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section
open scoped BigOperators
open Idealize.ShloMosaic Idealize.ShloMosaic.TcCoe Idealize.SL.Sem Idealize.ShloMosaic.ValueIdx

namespace Cert.ReferenceIdeal.Read
open Cert.ReferenceIdeal Cert.ReferenceIdeal.Gen

open Idealize.ShloMosaic.StableHlo.Predicate in
private theorem ij_eq {n m : Nat} (p : Fin n) (q : Fin m) : ij p q = ix2 p q := by
  funext a; match a with | ⟨0, _⟩ => rfl | ⟨1, _⟩ => rfl

open Idealize.ShloMosaic.StableHlo.Predicate in
private theorem ixP_eq {n : Nat} (p : Fin n) : ixP p = ix2 p (0 : Fin 1) := by
  funext a; match a with | ⟨0, _⟩ => rfl | ⟨1, _⟩ => rfl

private theorem ofFin_eq {n : Nat} (p : Fin n) : Shape.Idx.ofFin p = ix1 p := by
  funext a; match a with | ⟨0, _⟩ => rfl

private theorem reduces_cols : S4194304x12.Reduces [1] S4194304 := by decide

private theorem lift_row (h : S4194304x12.Reduces [1] S4194304) (s : Fin 4194304) (k : Fin (S4194304x12.size 1)) :
    h.lift (ix1 s) k = ix2 s (⟨k.val, k.isLt⟩ : Fin 12) := by
  funext c; apply Fin.ext
  match c with
  | ⟨0, _⟩ => rfl
  | ⟨1, _⟩ => rfl

/-- The reference's row maximum at sample s: the fold of max over the twelve classes from the pattern of −∞. -/
private theorem rowMax_read (X : FVec Ideal S4194304x12 .f32) (s : Fin 4194304) :
    Host.reduce FloatOps.maximumf X (constant (F := Ideal) S_ .f32 0xFF800000#32) Facts₀.reducesTo_S4194304x12_S4194304_d1 Facts₀.h_S_ (ix1 s)
      = Loss.rowMax (Loss.rowOf X s) := by
  rw [Host.reduce_eq_fold_single FloatOps.maximumf X _ Facts₀.reducesTo_S4194304x12_S4194304_d1 reduces_cols Facts₀.h_S_]
  have hf : (X ∘ reduces_cols.lift (ix1 s)) = fun k : Fin 12 => X (ix2 s k) :=
    funext fun k => congrArg X (lift_row reduces_cols s k)
  unfold Loss.rowMax
  exact congrArg (fun f => Finset.fold max (Ideal.ofBits .f32 0xFF800000#32) f (Finset.univ : Finset (Fin 12))) hf

/-- A sum over the classes of a row, as the host's reduce reads it: the sum over the twelve entries. -/
private theorem reduceAdd_row (Y : FVec Ideal S4194304x12 .f32) (s : Fin 4194304) :
    Host.reduceAdd Y (constant (F := Ideal) S_ .f32 0x00000000#32) Facts₀.reducesTo_S4194304x12_S4194304_d1 Facts₀.h_S_ (ix1 s)
      = ∑ c : Fin 12, Y (ix2 s c) := by
  unfold Host.reduceAdd
  rw [Ideal.hostReduceAdd_def, Ideal.hostReduceAdd_single Facts₀.reducesTo_S4194304x12_S4194304_d1 reduces_cols]
  rw [constant_apply, Ideal.ofBits_zero_f32, zero_add]
  exact Finset.sum_congr rfl fun k _ => congrArg Y (lift_row reduces_cols s k)

open Idealize.ShloMosaic.StableHlo.Predicate in
/-- A vector laid along the rows of the [4194304 × 12] rectangle reads, at (s, c), the vector at s. -/
private theorem rows_read (v : FVec Ideal S4194304 .f32) (s : Fin 4194304) (c : Fin 12) :
    broadcastInDim S4194304x12 ![0, 1] Facts₀.bcast_S4194304x1_S4194304x12_0_1
      (broadcastInDim S4194304x1 ![0] Facts₀.bcast_S4194304_S4194304x1_0 v) (ix2 s c) = v (ix1 s) := by
  have e := bcast_rows (n := 4194304) (m := 12) Facts₀.bcast_S4194304_S4194304x1_0 Facts₀.bcast_S4194304x1_S4194304x12_0_1 v s c
  rw [ij_eq, ofFin_eq] at e
  exact e

open Idealize.ShloMosaic.StableHlo.Predicate in
/-- A column laid along the rows reads, at (s, c), the column at (s, 0). -/
private theorem col_read (w : FVec Ideal S4194304x1 .f32) (s : Fin 4194304) (c : Fin 12) :
    broadcastInDim S4194304x12 ![0, 1] Facts₀.bcast_S4194304x1_S4194304x12_0_1 w (ix2 s c) = w (ix2 s (0 : Fin 1)) := by
  have e := bcast_of_col (n := 4194304) (m := 12) Facts₀.bcast_S4194304x1_S4194304x12_0_1 w s c
  rw [ij_eq, ixP_eq] at e
  exact e

open Idealize.ShloMosaic.StableHlo.Predicate in
/-- A vector as a column reads, at (s, 0), the vector at s. -/
private theorem col1_read (v : FVec Ideal S4194304 .f32) (s : Fin 4194304) :
    broadcastInDim S4194304x1 ![0] Facts₀.bcast_S4194304_S4194304x1_0 v (ix2 s (0 : Fin 1)) = v (ix1 s) := by
  have e := bcast_col1 (n := 4194304) Facts₀.bcast_S4194304_S4194304x1_0 v s
  rw [ixP_eq, ofFin_eq] at e
  exact e

theorem logSoftmax_apply (X : FVec Ideal S4194304x12 .f32) (s : Fin 4194304) (c : Fin 12) :
    RefTerm.logSoftmax (F := Ideal) X (ix2 s c) = Loss.logp (Loss.rowOf X s) c := by
  -- the shifted score at (s, c')
  have hshift : ∀ c' : Fin 12,
      subf X (broadcastInDim S4194304x12 ![0, 1] Facts₀.bcast_S4194304x1_S4194304x12_0_1
        (broadcastInDim S4194304x1 ![0] Facts₀.bcast_S4194304_S4194304x1_0
          (maximumf (broadcastInDim S4194304 ![] Facts₀.bcast_S_S4194304 (constant (F := Ideal) S_ .f32 0xFF800000#32))
            (Host.reduce FloatOps.maximumf X (constant (F := Ideal) S_ .f32 0xFF800000#32)
              Facts₀.reducesTo_S4194304x12_S4194304_d1 Facts₀.h_S_)))) (ix2 s c')
        = X (ix2 s c') - Loss.rowMax (Loss.rowOf X s) := by
    intro c'
    rw [subf_apply, rows_read, maximumf_apply, rowMax_read]
    congr 1
    refine max_eq_right ?_
    show Ideal.ofBits .f32 0xFF800000#32 ≤ _
    rw [Loss.ofBits_negInf]
    exact bot_le
  have hsum : Host.reduceAdd (Host.exp (subf X (broadcastInDim S4194304x12 ![0, 1] Facts₀.bcast_S4194304x1_S4194304x12_0_1
        (broadcastInDim S4194304x1 ![0] Facts₀.bcast_S4194304_S4194304x1_0
          (maximumf (broadcastInDim S4194304 ![] Facts₀.bcast_S_S4194304 (constant (F := Ideal) S_ .f32 0xFF800000#32))
            (Host.reduce FloatOps.maximumf X (constant (F := Ideal) S_ .f32 0xFF800000#32)
              Facts₀.reducesTo_S4194304x12_S4194304_d1 Facts₀.h_S_))))))
        (constant (F := Ideal) S_ .f32 0x00000000#32) Facts₀.reducesTo_S4194304x12_S4194304_d1 Facts₀.h_S_ (ix1 s)
        = Loss.sumExp (Loss.rowOf X s) := by
    rw [reduceAdd_row]
    unfold Loss.sumExp
    refine Finset.sum_congr rfl fun c' _ => ?_
    show Ideal.exp _ = _
    rw [hshift]
  have hlog : ∀ w : FVec Ideal S4194304x1 .f32, Host.log w (ix2 s (0 : Fin 1)) = Ideal.log (w (ix2 s (0 : Fin 1))) := fun _ => rfl
  unfold RefTerm.logSoftmax
  simp only []
  rw [subf_apply, hshift, col_read, hlog, col1_read, hsum]
  rfl

/-- The sum over the classes of a row of the log-softmax, as the host's reduce reads it. -/
theorem rowSum_apply (X : FVec Ideal S4194304x12 .f32) (s : Fin 4194304) :
    Host.reduceAdd (RefTerm.logSoftmax (F := Ideal) X) (constant S_ .f32 0x00000000#32) Facts₀.reducesTo_S4194304x12_S4194304_d1 Facts₀.h_S_ (ix1 s)
      = Loss.rowSum (Loss.rowOf X s) := by
  rw [reduceAdd_row]
  unfold Loss.rowSum
  exact Finset.sum_congr rfl fun c _ => logSoftmax_apply X s c

end Cert.ReferenceIdeal.Read
end
-- ==== Proof.RReadGather.lean ====
/-
  The reference's two lookups at a sample whose label word is below twelve: the guarded gather along the class axis
  returns the row's entry at the label, and the gather from the table returns the table's entry at the label.
-/
import proofs.«428217_j5540507811956_3_alg».proof.Proof.Gen.ReferenceIdeal
import proofs.«428217_j5540507811956_3_alg».proof.Proof.RefTerm
import proofs.«428217_j5540507811956_3_alg».proof.Proof.Spec
import Idealize.ShloMosaic.Lib.ValueIdx
import Idealize.ShloMosaic.Lib.Pipeline.Value
import Idealize.ShloMosaic.Lib.StableHlo.Predicate
import Idealize.ShloMosaic.Lib.ReduceAll
import Idealize.ShloMosaic.PureOps.Ideal.Laws

noncomputable section
open scoped BigOperators
open Idealize.ShloMosaic Idealize.ShloMosaic.TcCoe Idealize.SL.Sem Idealize.ShloMosaic.ValueIdx

namespace Cert.ReferenceIdeal.Read
open Cert.ReferenceIdeal Cert.ReferenceIdeal.Gen

/-- The two spellings of a rank-1 index at a coordinate agree. -/
private theorem ofFin_eq_ix1 {n : Nat} (p : Fin n) : (Shape.Idx.ofFin p : (⟨1, ![n]⟩ : Shape).Idx) = ix1 p := by
  funext a; match a with | ⟨0, _⟩ => exact Fin.ext rfl

/-- The two spellings of row p of an [n × 1] column agree. -/
private theorem ixP_eq_ix2 {n : Nat} (p : Fin n) : (StableHlo.Predicate.ixP p : (⟨2, ![n, 1]⟩ : Shape).Idx) = ix2 p (0 : Fin 1) := by
  funext a; match a with | ⟨0, _⟩ => rfl | ⟨1, _⟩ => rfl

/-- The two printings of the table hold the same twelve words. -/
private theorem lit0_eq : ∀ k : Fin 12, lit0 k = Loss.weightWord k := by decide

/-- A word below twelve is not below zero as a signed word. -/
private theorem slt_zero_of_lt (t : BitVec 32) (h : t.toNat < 12) : IntOp.cmpi .slt t 0#32 = 0#1 := by
  apply eq_zero_of_ne_one
  intro e
  have := (StableHlo.Predicate.slt_iff_toNat (a := t) (b := 0#32) (by omega) (by decide)).mp e
  simp at this

/-- A word below twelve, read signed and clamped into 0 … 11, is itself. -/
private theorem clamp_of_lt (t : BitVec 32) (h : t.toNat < 12) : min t.toInt.toNat (12 - 1) = t.toNat := by
  rw [StableHlo.Predicate.toInt_eq_toNat_of_lt (by omega), Int.toNat_natCast]
  omega

/-- The table read at the clamped position of a word below twelve is the weight at that word. -/
private theorem table_clamp (w t : BitVec 32) (e : w = t) (h : t.toNat < 12) (hh : min w.toInt.toNat (12 - 1) < 12) :
    RefTerm.table (F := Ideal) (Shape.Idx.ofFin ⟨min w.toInt.toNat (12 - 1), hh⟩) = Loss.weightTab ⟨t.toNat, h⟩ := by
  subst e
  have hr : S12.rowMajor (Shape.Idx.ofFin (⟨min w.toInt.toNat (12 - 1), hh⟩ : Fin 12)) = (⟨w.toNat, h⟩ : Fin 12) := by
    apply Fin.ext
    rw [Shape.rowMajor_val_one]
    exact clamp_of_lt w h
  unfold RefTerm.table Loss.weightTab
  rw [hr, lit0_eq]
  rfl

/-- The wrap of a negative label leaves a word below twelve as it is. -/
private theorem wrap_of_lt {S : Shape} (T : IVec S 32) (z c : IVec S 32) (i : S.Idx) (hz : z i = 0#32) (h : (T i).toNat < 12) :
    select (cmpi .slt T z) (addi T c) T i = T i := by
  rw [select_apply]
  show Scalar.select (IntOp.cmpi .slt (T i) (z i)) _ _ = _
  rw [hz, slt_zero_of_lt _ h, select_zero]

/-- THE ROW TAKE. A gather along the second axis of an [n × N] array, batched over the first, whose start indices are the
    [n × 1 × 1] array of positions: result position (p, 0) reads row p at position (p, 0, 0)'s start index, read signed
    and clamped into the row. -/
private theorem gather_row {α : Type} {n N w : Nat} (d : GatherDims ⟨2, ![n, N]⟩ ⟨3, ![n, 1, 1]⟩ ⟨2, ![n, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![n, N]⟩ : Shape).Idx → α) (idx : IVec ⟨3, ![n, 1, 1]⟩ w) (p : Fin n) (hN : 0 < N) :
    Host.gather d x idx (ix2 p (0 : Fin 1))
      = x (ix2 p (⟨min (idx (ix3 p (0 : Fin 1) (0 : Fin 1))).toInt.toNat (N - 1), by omega⟩ : Fin N)) := by
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the batched axis: no start, no offset, the result's first coordinate
    show (GatherDims.mk [] [1] [0] [0] [1] 2 ss wf).start (ix2 p (0 : Fin 1)) idx 0
      + (GatherDims.mk [] [1] [0] [0] [1] 2 ss wf).batchCoord (ix2 p (0 : Fin 1)) 0
      + (GatherDims.mk [] [1] [0] [0] [1] 2 ss wf).offCoord (ix2 p (0 : Fin 1)) 0 = p.val
    rw [GatherDims.start_batching _ _ _ _ (List.mem_singleton.mpr rfl),
      GatherDims.offCoord_eq_zero _ _ _ (fun hk => ((GatherDims.mem_sKept _ _).mp hk).2 (List.mem_singleton.mpr rfl)),
      Nat.zero_add, Nat.add_zero]
    unfold GatherDims.batchCoord
    rw [dif_pos (List.mem_singleton.mpr rfl)]
    rfl
  | ⟨1, _⟩ =>
    -- the collapsed axis: the clamped start index, no batch coordinate, no offset
    have hsl : ss 1 = 1 := (GatherDims.mk [] [1] [0] [0] [1] 2 ss wf).slice_collapsed 1 (List.mem_singleton.mpr rfl)
    show (GatherDims.mk [] [1] [0] [0] [1] 2 ss wf).start (ix2 p (0 : Fin 1)) idx 1
      + (GatherDims.mk [] [1] [0] [0] [1] 2 ss wf).batchCoord (ix2 p (0 : Fin 1)) 1
      + (GatherDims.mk [] [1] [0] [0] [1] 2 ss wf).offCoord (ix2 p (0 : Fin 1)) 1
      = min (idx (ix3 p (0 : Fin 1) (0 : Fin 1))).toInt.toNat (N - 1)
    rw [GatherDims.batchCoord_eq_zero _ _ _ (show (1 : Fin 2) ∉ ([0] : List (Fin 2)) from by decide),
      GatherDims.offCoord_eq_zero _ _ _ (fun hk => ((GatherDims.mem_sKept _ _).mp hk).1 (List.mem_singleton.mpr rfl)),
      Nat.add_zero]
    unfold GatherDims.start
    rw [dif_pos (List.mem_singleton.mpr rfl)]
    have hsi : (GatherDims.mk [] [1] [0] [0] [1] 2 ss wf).siIdx (ix2 p (0 : Fin 1))
        ⟨List.idxOf (1 : Fin 2) [1], List.idxOf_lt_length_iff.2 (List.mem_singleton.mpr rfl)⟩ = ix3 p (0 : Fin 1) (0 : Fin 1) := by
      funext b; refine Fin.ext ?_
      match b with
      | ⟨0, _⟩ => rfl
      | ⟨1, _⟩ => rfl
      | ⟨2, _⟩ => rfl
    rw [hsi]
    show min _ (N - ss 1) = _
    rw [hsl]

/-- A left fold by and from true over true entries is true. -/
private theorem foldl_andi_one {ι : Type} (f : ι → BitVec 1) :
    ∀ (l : List ι) (init : BitVec 1), init = 1#1 → (∀ i ∈ l, f i = 1#1) → l.foldl (fun r i => IntOp.andi r (f i)) init = 1#1
  | [], init, h, _ => h
  | a :: l, init, h, hl => by
    rw [List.foldl_cons]
    refine foldl_andi_one f l _ ?_ (fun i hi => hl i (List.mem_cons_of_mem _ hi))
    rw [h, hl a List.mem_cons_self]
    rfl

/-- The and-reduction over the unit last axis, from true, is true at (s, 0) when the entry at (s, 0, 0) is. -/
private theorem reduce_and_unit (x : IVec S4194304x1x1 1) (init : IVec S_ 1) (h : S4194304x1x1.ReducesTo [2] S4194304x1)
    (hu : 0 < S_.numel) (hinit : init (Shape.Idx.first hu) = 1#1) (s : Fin 4194304)
    (hx : x (ix3 s (0 : Fin 1) (0 : Fin 1)) = 1#1) :
    Host.reduce IntOp.andi x init h hu (ix2 s (0 : Fin 1)) = 1#1 := by
  rw [Host.reduce_eq_foldl]
  refine foldl_andi_one x _ _ hinit ?_
  intro i hi
  have hd : h.drop i = ix2 s (0 : Fin 1) := of_decide_eq_true (List.mem_filter.mp hi).2
  have h0 : (i 0).val = s.val := by
    have e := Shape.ReducesTo.drop_apply_val_of_eq h i 0 0
    rw [hd] at e
    exact e.symm
  have hi3 : i = ix3 s (0 : Fin 1) (0 : Fin 1) := by
    funext a
    apply Fin.ext
    match a with
    | ⟨0, _⟩ => exact h0
    | ⟨1, _⟩ =>
      have := (i 1).isLt
      change (i 1).val < 1 at this
      show (i 1).val = 0
      omega
    | ⟨2, _⟩ =>
      have := (i 2).isLt
      change (i 2).val < 1 at this
      show (i 2).val = 0
      omega
  rw [hi3]
  exact hx

/-- The wrapped labels as an [n × 1 × 1] array read, at (s, 0, 0), the column's word at (s, 0) when that word is below
    twelve. -/
private theorem wrapped_cast_apply (T2 z c : IVec S4194304x1 32) (hc : S4194304x1.ShapeCasts S4194304x1x1) (s : Fin 4194304)
    (hz : z (ix2 s (0 : Fin 1)) = 0#32) (h : (T2 (ix2 s (0 : Fin 1))).toNat < 12) :
    shapeCast S4194304x1x1 (select (cmpi .slt T2 z) (addi T2 c) T2) hc (ix3 s (0 : Fin 1) (0 : Fin 1))
      = T2 (ix2 s (0 : Fin 1)) := by
  refine (shapeCast_apply _ hc (ix3 s (0 : Fin 1) (0 : Fin 1)) (ix2 s (0 : Fin 1)) ?_).trans (wrap_of_lt T2 z c _ hz h)
  rw [Shape.rowMajor_val_two, Shape.rowMajor_val_three]
  show s.val * 1 + 0 = (s.val * 1 + 0) * 1 + 0
  omega

/-- The guarded row take at a sample whose start index is a word below twelve: the range test passes, so the select
    keeps the gathered value, and the clamp leaves the word as it is. -/
private theorem guarded_row (L : FVec Ideal S4194304x12 .f32) (V z3 e3 : IVec S4194304x1x1 32) (one : IVec S_ 1)
    (fill : FVec Ideal S4194304x1 .f32) (hred : S4194304x1x1.ReducesTo [2] S4194304x1) (hu : 0 < S_.numel)
    (s : Fin 4194304) (t : BitVec 32) (hv : V (ix3 s (0 : Fin 1) (0 : Fin 1)) = t) (ht : t.toNat < 12)
    (hz : z3 (ix3 s (0 : Fin 1) (0 : Fin 1)) = 0#32) (he : e3 (ix3 s (0 : Fin 1) (0 : Fin 1)) = 11#32)
    (hone : one (Shape.Idx.first hu) = 1#1) :
    select (Host.reduce IntOp.andi (andi (cmpi .sge V z3) (cmpi .sle V e3)) one hred hu)
        (Host.gather gather_S4194304x12_S4194304x1x1_S4194304x1_n_1_0_0_1_2_11 L V) fill (ix2 s (0 : Fin 1))
      = L (ix2 s ⟨t.toNat, ht⟩) := by
  have hx : andi (cmpi .sge V z3) (cmpi .sle V e3) (ix3 s (0 : Fin 1) (0 : Fin 1)) = 1#1 := by
    show IntOp.andi (IntOp.cmpi .sge (V _) (z3 _)) (IntOp.cmpi .sle (V _) (e3 _)) = 1#1
    rw [hv, hz, he, (StableHlo.Predicate.sge_iff_toNat (by omega) (by decide)).mpr (Nat.zero_le _),
      (StableHlo.Predicate.sle_iff_toNat (by omega) (by decide)).mpr (by show t.toNat ≤ 11; omega)]
    rfl
  rw [select_apply, reduce_and_unit _ one hred hu hone s hx, select_one]
  refine (gather_row _ rfl rfl rfl rfl rfl rfl L V s (by decide)).trans ?_
  refine congrArg L (congrArg (ix2 s) (Fin.ext ?_))
  show min (V (ix3 s (0 : Fin 1) (0 : Fin 1))).toInt.toNat (12 - 1) = t.toNat
  rw [hv]
  exact clamp_of_lt t ht

/-- The guarded lookup over any column of labels whose word at the sample is below twelve. -/
private theorem takeAlong_col (L : FVec Ideal S4194304x12 .f32) (T2 : IVec S4194304x1 32) (s : Fin 4194304)
    (h : (T2 (ix2 s (0 : Fin 1))).toNat < 12) :
    RefTerm.takeAlong (F := Ideal) L T2 (ix2 s (0 : Fin 1)) = L (ix2 s ⟨(T2 (ix2 s (0 : Fin 1))).toNat, h⟩) := by
  unfold RefTerm.takeAlong
  exact guarded_row L _ _ _ _ _ _ _ s _ (wrapped_cast_apply T2 _ _ _ s rfl h) h rfl rfl rfl

/-- The labels as a column read, at (s, 0), the label at s. -/
private theorem col_apply (T : IVec S4194304 32) (s : Fin 4194304) :
    broadcastInDim S4194304x1 ![0] Facts₀.bcast_S4194304_S4194304x1_0 T (ix2 s (0 : Fin 1)) = T (ix1 s) := by
  rw [← ixP_eq_ix2, ← ofFin_eq_ix1]
  exact StableHlo.Predicate.bcast_col1 _ T s

theorem takeAlong_apply (L : FVec Ideal S4194304x12 .f32) (T : IVec S4194304 32) (s : Fin 4194304)
    (h : (T (ix1 s)).toNat < 12) :
    RefTerm.takeAlong (F := Ideal) L (broadcastInDim S4194304x1 ![0] Facts₀.bcast_S4194304_S4194304x1_0 T) (ix2 s (0 : Fin 1))
      = L (ix2 s ⟨(T (ix1 s)).toNat, h⟩) := by
  have e := col_apply T s
  refine (takeAlong_col L _ s (by rw [e]; exact h)).trans ?_
  refine congrArg L (congrArg (ix2 s) (Fin.ext ?_))
  show (broadcastInDim S4194304x1 ![0] Facts₀.bcast_S4194304_S4194304x1_0 T (ix2 s (0 : Fin 1))).toNat = (T (ix1 s)).toNat
  rw [e]

theorem weightOf_apply (T : IVec S4194304 32) (s : Fin 4194304) (h : (T (ix1 s)).toNat < 12) :
    RefTerm.weightOf (F := Ideal) T (ix1 s) = Loss.weightTab ⟨(T (ix1 s)).toNat, h⟩ := by
  have e1 : (ix1 s : S4194304.Idx) = Shape.Idx.ofFin s := (ofFin_eq_ix1 s).symm
  unfold RefTerm.weightOf
  simp only []
  refine (congrArg _ e1).trans ?_
  refine (StableHlo.Predicate.gather_take gather_S12_S4194304x1_S4194304_n_0_n_n_0_1_1 rfl rfl rfl rfl _ _ s (by decide)).trans ?_
  refine table_clamp _ _ ?_ h _
  refine (StableHlo.Predicate.bcast_col1 _ _ s).trans ?_
  rw [ofFin_eq_ix1]
  exact wrap_of_lt T _ _ (ix1 s) rfl h

end Cert.ReferenceIdeal.Read
end
-- ==== Proof.RRead.lean ====
/-
  The reference's result for labels below twelve: the loss of the two totals over the samples, dividing before it
  negates.
-/
import proofs.«428217_j5540507811956_3_alg».proof.Proof.RReadSoftmax
import proofs.«428217_j5540507811956_3_alg».proof.Proof.RReadGather
import Idealize.ShloMosaic.Lib.ValueIdxRank1

noncomputable section
open scoped BigOperators
open Idealize.ShloMosaic Idealize.ShloMosaic.TcCoe Idealize.SL.Sem Idealize.ShloMosaic.ValueIdx

namespace Cert.ReferenceIdeal.Read
open Cert.ReferenceIdeal Cert.ReferenceIdeal.Gen

/-- A column cast to a vector reads, at s, the column at (s, 0): the two row-major positions are both s. -/
private theorem cast_col_read {α : Type} (w : S4194304x1.Idx → α) (s : Fin 4194304) :
    shapeCast S4194304 w Facts₀.shapeCasts_S4194304x1_S4194304 (ix1 s) = w (ix2 s (0 : Fin 1)) :=
  shapeCast_apply w _ _ _ (by
    rw [Shape.rowMajor_val_two, Shape.rowMajor_val_one]
    show s.val * 1 + 0 = s.val
    rw [Nat.mul_one, Nat.add_zero])

/-- A sum over every sample, as the host's reduce reads it: the sum over the 4194304 coordinates. -/
private theorem reduceAdd_all (Y : FVec Ideal S4194304 .f32) (j : S_.Idx) :
    Host.reduceAdd Y (constant (F := Ideal) S_ .f32 0x00000000#32) Facts₀.reducesTo_S4194304_S_d0 Facts₀.h_S_ j
      = ∑ s : Fin 4194304, Y (ix1 s) := by
  unfold Host.reduceAdd
  rw [Ideal.hostReduceAdd_def, Ideal.hostReduceAdd_total Facts₀.reducesTo_S4194304_S_d0 (fun b => b.elim0)]
  rw [constant_apply, Ideal.ofBits_zero_f32, zero_add]
  exact (Equiv.sum_comp (idxEquiv1 (n := 4194304)).symm Y).symm

theorem pickedVec_apply (X : FVec Ideal S4194304x12 .f32) (T : IVec S4194304 32) (s : Fin 4194304) (h : (T (ix1 s)).toNat < 12) :
    RefTerm.pickedVec (F := Ideal) X T (ix1 s) = Loss.picked (Loss.rowOf X s) (T (ix1 s)) := by
  unfold RefTerm.pickedVec
  rw [cast_col_read, takeAlong_apply _ T s h, logSoftmax_apply]
  exact (Loss.picked_of_lt _ _ h).symm

theorem termVec_apply (X : FVec Ideal S4194304x12 .f32) (T : IVec S4194304 32) (s : Fin 4194304) (h : (T (ix1 s)).toNat < 12) :
    RefTerm.termVec (F := Ideal) X T (ix1 s) = Loss.term (Loss.rowOf X s) (T (ix1 s)) := by
  unfold RefTerm.termVec
  simp only []
  rw [addf_apply, mulf_apply, subf_apply, weightOf_apply T s h, rowSum_apply, pickedVec_apply X T s h]
  unfold Loss.term
  rw [Loss.weight_of_lt _ h]

theorem result_eq (X : FVec Ideal S4194304x12 .f32) (T : IVec S4194304 32) (hT : ∀ s : Fin 4194304, (T (ix1 s)).toNat < 12) :
    RefTerm.result (F := Ideal) X T = fun _ => Loss.lossDivFirst (Loss.totTerm X T) (Loss.totPicked X T) := by
  have hterm : ∀ j, Host.reduceAdd (RefTerm.termVec (F := Ideal) X T) (constant (F := Ideal) S_ .f32 0x00000000#32)
      Facts₀.reducesTo_S4194304_S_d0 Facts₀.h_S_ j = Loss.totTerm X T := by
    intro j
    rw [reduceAdd_all]
    unfold Loss.totTerm
    exact Finset.sum_congr rfl fun s _ => termVec_apply X T s (hT s)
  have hpicked : ∀ j, Host.reduceAdd (RefTerm.pickedVec (F := Ideal) X T) (constant (F := Ideal) S_ .f32 0x00000000#32)
      Facts₀.reducesTo_S4194304_S_d0 Facts₀.h_S_ j = Loss.totPicked X T := by
    intro j
    rw [reduceAdd_all]
    unfold Loss.totPicked
    exact Finset.sum_congr rfl fun s _ => pickedVec_apply X T s (hT s)
  have hneg : ∀ (v : FVec Ideal S_ .f32) (j : S_.Idx), Host.negf v j = -(v j) := fun _ _ => rfl
  have hdiv : ∀ (a b : FVec Ideal S_ .f32) (j : S_.Idx), Host.divf a b j = Ideal.div (a j) (b j) := fun _ _ _ => rfl
  funext j
  unfold RefTerm.result
  simp only []
  rw [addf_apply, mulf_apply, mulf_apply, hneg, hneg, hdiv, hdiv, hterm, hpicked]
  rfl

end Cert.ReferenceIdeal.Read
end
-- ==== Proof.PreRead.lean ====
/-
  What the precondition says of the labels: every label word is below twelve. The predicate is the conjunction of
  two "for all" tests, each a reduction by "and" into a single bit; the second runs over the labels and tests
  0 ≤ t and t < 12 as signed words, and a word in [0, 12) signed is below 12 unsigned.
-/
import proofs.«428217_j5540507811956_3_alg».proof.Proof.Gen.Pre_finite_inputs
import Idealize.ShloMosaic.Lib.ValueIdx
import Idealize.ShloMosaic.Lib.ReduceAll
import Idealize.ShloMosaic.Lib.StableHlo.Predicate

noncomputable section
open scoped BigOperators
open Idealize.ShloMosaic Idealize.ShloMosaic.TcCoe Idealize.SL.Sem Idealize.ShloMosaic.ValueIdx

namespace Cert.Pre_finite_inputs.Read
open Cert.Pre_finite_inputs Cert.Pre_finite_inputs.Gen

/-- A rank-0 array has one index. -/
instance : Subsingleton S_.Idx := ⟨fun a b => funext fun d => d.elim0⟩

theorem ofBool_eq_one (b : Bool) : BitVec.ofBool b = 1#1 ↔ b = true := by cases b <;> decide

theorem and_eq_one : ∀ (a b : BitVec 1), IntOp.andi a b = 1#1 ↔ a = 1#1 ∧ b = 1#1 := by decide

/-- A word in [0, n) signed is below n unsigned. -/
theorem toNat_lt (w : BitVec 32) (n : Nat) (hn : n < 2 ^ 31) (h0 : IntOp.cmpi .sge w (0#32) = 1#1)
    (hlt : IntOp.cmpi .slt w (BitVec.ofNat 32 n) = 1#1) : w.toNat < n := by
  unfold IntOp.cmpi at h0 hlt
  rw [ofBool_eq_one] at h0 hlt
  simp only [BitVec.slt, BitVec.sle, decide_eq_true_eq] at h0 hlt
  have h32 := w.isLt
  unfold BitVec.toInt at h0 hlt
  split at hlt <;> simp at h0 hlt <;> omega

theorem labels_lt (X : FVec Ideal S4194304x12 .f32) (T : IVec S4194304 32)
    (h : Cert.Pre_finite_inputs.fn (F := Ideal) X T = fun _ => 1#1) (s : Fin 4194304) : (T (ix1 s)).toNat < 12 := by
  have e := congrFun h ix0
  unfold Cert.Pre_finite_inputs.fn at e
  dsimp only at e
  -- the outer conjunction of the two tests
  have e2 := ((and_eq_one _ _).1 e).2
  -- the test over the labels, at sample s
  have e3 := Host.reduce_andi_all _ _ _ _ _ e2 (ix1 s)
  simp only [andi, cmpi, broadcastInDim, constantI] at e3
  obtain ⟨h0, h12⟩ := (and_eq_one _ _).1 e3
  exact toNat_lt _ 12 (by decide) h0 h12

end Cert.Pre_finite_inputs.Read
end
-- ==== Proof.lean ====
/-
  The claim: a label-smoothed cross-entropy loss over 4194304 samples of twelve classes, computed by a kernel that
  accumulates two partial totals block by block over a (2, 64) grid and combines them on the host, against the
  same loss computed array-wise.

  Under the precondition (finite scores; every label in 0 … 11) both programs end at one extended real,
    0.6 · (−(∑ₛ Pₛ)/B) + 0.4 · (−(∑ₛ termₛ)/B),
  with Pₛ the log-probability of sample s's label and termₛ = wₛ · (Rₛ − Pₛ) + Pₛ (wₛ the label's neighbour weight,
  Rₛ the sum of the sample's log-probabilities). The kernel picks Pₛ and wₛ by a one-hot sum over the classes, the
  reference by two lookups; for a label in range these agree, and outside it they do not, which is why the labels'
  range is part of the precondition. What else differs is the grouping of the sums over the samples (by block,
  by half, by row of the output tile) and the place of the negation, before or after the division by B; over the
  extended reals neither changes the value. Finiteness of the scores is not used.

  The two kernel frames are the generated ones; the reference's frame is its run with the result dropped; the
  idealization rewrote nothing, so the preservation claim is trivial.
-/
import proofs.«428217_j5540507811956_3_alg».proof.Defs
import proofs.«428217_j5540507811956_3_alg».proof.Proof.Gen.Kernel.Frame
import proofs.«428217_j5540507811956_3_alg».proof.Proof.Gen.KernelIdeal.Frame
import proofs.«428217_j5540507811956_3_alg».proof.Proof.Gen.ReferenceIdeal
import proofs.«428217_j5540507811956_3_alg».proof.Proof.Gen.Pre_finite_inputs
import proofs.«428217_j5540507811956_3_alg».proof.Proof.KRun
import proofs.«428217_j5540507811956_3_alg».proof.Proof.RRun
import proofs.«428217_j5540507811956_3_alg».proof.Proof.RRead
import proofs.«428217_j5540507811956_3_alg».proof.Proof.PreRead

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both runs end at the loss of the shared arguments: the kernel's by its value run, the reference's by its run,
    its result read for labels in range, and the two placements of the negation agreeing. -/
theorem algebraic : Cert.algebraic_KernelIdeal_ReferenceIdeal := by
  intro m ρ m' ρ' hpre hagree
  refine ⟨fun c => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2,
    Cert.ReferenceIdeal.Read.result_eq _ _ (fun s => Cert.Pre_finite_inputs.Read.labels_lt _ _ (hpre c) s)]
  funext i
  exact (Cert.Loss.lossNegFirst_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
